-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x64x64 : Shape := ⟨3, ![2, 64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x64 .f32) (main_arg1 : FVec F S2x64x64 .f32) (main_arg2 : IVec S800000 32) (main_arg3 : IVec S800000 32) (main_arg4 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_c_2 : IVec S_ 32 := constantI S_ 32 0#32
  let main_v9 : IVec S800000 32 := broadcastInDim S800000 ![] bcast_S_S800000 main_c_2
  let main_v10 : IVec S800000 1 := cmpi .sge main_arg4 main_v9
  let main_c_3 : IVec S_ 32 := constantI S_ 32 64#32
  let main_v11 : IVec S800000 32 := broadcastInDim S800000 ![] bcast_S_S800000 main_c_3
  let main_v12 : IVec S800000 1 := cmpi .slt main_arg4 main_v11
  let main_v13 : IVec S800000 1 := andi main_v10 main_v12
  let main_c_4 : IVec S_ 1 := constantI S_ 1 1#1
  let main_v14 : IVec S_ 1 := (fun x v => Host.reduce IntOp.andi x v reducesTo_S800000_S_d0 h_S_) main_v13 main_c_4
  let main_v15 : IVec S_ 1 := andi main_v8 main_v14
  main_v15
-- ==== Kernel.lean ====
abbrev S50000x64 : Shape := ⟨2, ![50000, 64]⟩
abbrev S2x64x64 : Shape := ⟨3, ![2, 64, 64]⟩
abbrev S800000 : Shape := ⟨1, ![800000]⟩
abbrev S_ : Shape := ⟨0, ![]⟩
abbrev S802816 : Shape := ⟨1, ![802816]⟩
abbrev S1x802816 : Shape := ⟨2, ![1, 802816]⟩
abbrev S1x64x64 : Shape := ⟨3, ![1, 64, 64]⟩
abbrev S64x64 : Shape := ⟨2, ![64, 64]⟩
abbrev S802816x64 : Shape := ⟨2, ![802816, 64]⟩
abbrev S1x8192 : Shape := ⟨2, ![1, 8192]⟩
abbrev S8192x64 : Shape := ⟨2, ![8192, 64]⟩
abbrev S64x1 : Shape := ⟨2, ![64, 1]⟩
abbrev S64x8192 : Shape := ⟨2, ![64, 8192]⟩
abbrev S802816x1 : Shape := ⟨2, ![802816, 1]⟩
abbrev S50001x64 : Shape := ⟨2, ![50001, 64]⟩

abbrev nBuf : Space → Nat
  | .hbm => 53
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x64x64, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S_, .i32⟩
  | .hbm, ⟨7, _⟩ => ⟨S802816, .i32⟩
  | .hbm, ⟨8, _⟩ => ⟨S_, .i32⟩
  | .hbm, ⟨9, _⟩ => ⟨S_, .i32⟩
  | .hbm, ⟨10, _⟩ => ⟨S802816, .i32⟩
  | .hbm, ⟨11, _⟩ => ⟨S_, .i32⟩
  | .hbm, ⟨12, _⟩ => ⟨S_, .i32⟩
  | .hbm, ⟨13, _⟩ => ⟨S802816, .i32⟩
  | .hbm, ⟨14, _⟩ => ⟨S1x802816, .i32⟩
  | .hbm, ⟨15, _⟩ => ⟨S1x64x64, .f32⟩
  | .hbm, ⟨16, _⟩ => ⟨S64x64, .f32⟩
  | .hbm, ⟨17, _⟩ => ⟨S64x64, .bf16⟩
  | .hbm, ⟨18, _⟩ => ⟨S802816x64, .f32⟩
  | .hbm, ⟨19, _⟩ => ⟨S_, .i32⟩
  | .hbm, ⟨20, _⟩ => ⟨S802816, .i32⟩
  | .hbm, ⟨21, _⟩ => ⟨S802816, .i1⟩
  | .hbm, ⟨22, _⟩ => ⟨S_, .i32⟩
  | .hbm, ⟨23, _⟩ => ⟨S802816, .i32⟩
  | .hbm, ⟨24, _⟩ => ⟨S802816, .i32⟩
  | .hbm, ⟨25, _⟩ => ⟨S802816, .i32⟩
  | .hbm, ⟨26, _⟩ => ⟨S802816x1, .i32⟩
  | .hbm, ⟨27, _⟩ => ⟨S802816x64, .f32⟩
  | .hbm, ⟨28, _⟩ => ⟨S802816x64, .f32⟩
  | .hbm, ⟨29, _⟩ => ⟨S_, .f32⟩
  | .hbm, ⟨30, _⟩ => ⟨S50001x64, .f32⟩
  | .hbm, ⟨31, _⟩ => ⟨S802816x1, .i32⟩
  | .hbm, ⟨32, _⟩ => ⟨S50001x64, .f32⟩
  | .hbm, ⟨33, _⟩ => ⟨S50000x64, .f32⟩
  | .hbm, ⟨34, _⟩ => ⟨S1x64x64, .f32⟩
  | .hbm, ⟨35, _⟩ => ⟨S64x64, .f32⟩
  | .hbm, ⟨36, _⟩ => ⟨S64x64, .bf16⟩
  | .hbm, ⟨37, _⟩ => ⟨S802816x64, .f32⟩
  | .hbm, ⟨38, _⟩ => ⟨S_, .i32⟩
  | .hbm, ⟨39, _⟩ => ⟨S802816, .i32⟩
  | .hbm, ⟨40, _⟩ => ⟨S802816, .i1⟩
  | .hbm, ⟨41, _⟩ => ⟨S_, .i32⟩
  | .hbm, ⟨42, _⟩ => ⟨S802816, .i32⟩
  | .hbm, ⟨43, _⟩ => ⟨S802816, .i32⟩
  | .hbm, ⟨44, _⟩ => ⟨S802816, .i32⟩
  | .hbm, ⟨45, _⟩ => ⟨S802816x1, .i32⟩
  | .hbm, ⟨46, _⟩ => ⟨S802816x64, .f32⟩
  | .hbm, ⟨47, _⟩ => ⟨S802816x64, .f32⟩
  | .hbm, ⟨48, _⟩ => ⟨S_, .f32⟩
  | .hbm, ⟨49, _⟩ => ⟨S50001x64, .f32⟩
  | .hbm, ⟨50, _⟩ => ⟨S802816x1, .i32⟩
  | .hbm, ⟨51, _⟩ => ⟨S50001x64, .f32⟩
  | .hbm, ⟨52, _⟩ => ⟨S50000x64, .f32⟩
  | .local _ .vmem, ⟨0, _⟩ => ⟨S1x8192, .i32⟩
  | .local _ .vmem, ⟨1, _⟩ => ⟨S1x8192, .i32⟩
  | .local _ .vmem, ⟨2, _⟩ => ⟨S64x64, .bf16⟩
  | .local _ .vmem, ⟨3, _⟩ => ⟨S8192x64, .f32⟩
  | .local _ .vmem, ⟨4, _⟩ => ⟨S8192x64, .f32⟩
  | .local _ .vmem, ⟨5, _⟩ => ⟨S1x8192, .i32⟩
  | .local _ .vmem, ⟨6, _⟩ => ⟨S1x8192, .i32⟩
  | .local _ .vmem, ⟨7, _⟩ => ⟨S64x64, .bf16⟩
  | .local _ .vmem, ⟨8, _⟩ => ⟨S8192x64, .f32⟩
  | .local _ .vmem, ⟨9, _⟩ => ⟨S8192x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S800000_S802816_028160 : S800000.Pads (![0] : Fin 1 → Nat) ![2816] ![0] S802816
  h_S_ : 0 < S_.numel
  shapeCasts_S802816_S1x802816 : S802816.ShapeCasts S1x802816
  slices_S2x64x64_S1x64x64_0_0_0 : S2x64x64.Slices ![0, 0, 0] S1x64x64
  shapeCasts_S1x64x64_S64x64 : S1x64x64.ShapeCasts S64x64
  bitsLt_bf16_f32 : FTy.bits .bf16 < FTy.bits .f32
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S64x1_d0_w32 : S64x1.Iotas .tc 32 [0]
  broadcasts_S64x1_S64x8192 : S64x1.Broadcasts S64x8192
  broadcasts_S1x8192_S64x8192 : S1x8192.Broadcasts S64x8192
  natLt_1_32 : 1 < 32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8192x64_S8192x64_0_0 : ∀ a, (![0, 0] : Fin 2 → Nat) a + S8192x64.size a ≤ S8192x64.size a
  h_S8192x64 : 0 < S8192x64.numel
  bcast_S_S802816 : S_.BroadcastsInDim S802816 (![] : Fin 0 → Fin S802816.rank)
  bcast_S802816_S802816x1_0 : S802816.BroadcastsInDim S802816x1 (![0] : Fin 1 → Fin S802816x1.rank)
  bcast_S_S50001x64 : S_.BroadcastsInDim S50001x64 (![] : Fin 0 → Fin S50001x64.rank)
  slices_S50001x64_S50000x64_0_0 : S50001x64.Slices ![0, 0] S50000x64
  slices_S2x64x64_S1x64x64_1_0_0 : S2x64x64.Slices ![1, 0, 0] S1x64x64
  dot_S64x8192_S64x64_S8192x64_0_0_1_1_n_n_wf : DotDims.WF S64x8192 S64x64 S8192x64 [0] [0] [1] [1] [] []
  gather_S50000x64_S802816x1_S802816x64_1_0_n_n_0_1_164_wf : GatherDims.WF S50000x64 S802816x1 S802816x64 [1] [0] [] [0] [] 1 ![1, 64]
  scatter_S50001x64_S802816x1_S802816x64_1_0_0_1_wf : ScatterDims.WF S50001x64 S802816x1 S802816x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x802816.size a
  hwx0_0 : ∀ i : grid0.Coords, EltTy.bits .i32 = 32 ∨ (Rect.block (s := S1x802816) S1x8192.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S802816x64.size a
  hwx0_2 : ∀ i : grid0.Coords, EltTy.bits .f32 = 32 ∨ (Rect.block (s := S802816x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x802816.size a
  hwx1_0 : ∀ i : grid1.Coords, EltTy.bits .i32 = 32 ∨ (Rect.block (s := S1x802816) S1x8192.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S802816x64.size a
  hwx1_2 : ∀ i : grid1.Coords, EltTy.bits .f32 = 32 ∨ (Rect.block (s := S802816x64) S8192x64.size (cc1_transform_2 i) (hinb1_2 i)).WholeWords (EltTy.packing .f32)

variable [Facts₀]

def dot_S64x8192_S64x64_S8192x64_0_0_1_1_n_n : DotDims S64x8192 S64x64 S8192x64 where
  lhsContracting := [0]
  rhsContracting := [0]
  lhsNonContracting := [1]
  rhsNonContracting := [1]
  lhsBatch := []
  rhsBatch := []
  wf := dot_S64x8192_S64x64_S8192x64_0_0_1_1_n_n_wf
def gather_S50000x64_S802816x1_S802816x64_1_0_n_n_0_1_164 : GatherDims S50000x64 S802816x1 S802816x64 where
  offsetDims := [1]
  collapsedSliceDims := [0]
  operandBatchingDims := []
  startIndicesBatchingDims := []
  startIndexMap := [0]
  indexVectorDim := 1
  sliceSizes := ![1, 64]
  wf := gather_S50000x64_S802816x1_S802816x64_1_0_n_n_0_1_164_wf
def scatter_S50001x64_S802816x1_S802816x64_1_0_0_1 : ScatterDims S50001x64 S802816x1 S802816x64 where
  updateWindowDims := [1]
  insertedWindowDims := [0]
  scatterDimsToOperandDims := [0]
  indexVectorDim := 1
  wf := scatter_S50001x64_S802816x1_S802816x64_1_0_0_1_wf

abbrev win0_0 : Pipeline.Window sig grid0 :=
  Pipeline.Window.ofSpec (Memref.whole main_v3) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x64x64 : Shape := ⟨3, ![2, 64, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩

abbrev nBuf : Space → Nat
  | .hbm => 55
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x64x64, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S1x64x64, .f32⟩
  | .hbm, ⟨40, _⟩ => ⟨S64x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S2x64x64_S1x64x64_0_0_0 : S2x64x64.Slices ![0, 0, 0] S1x64x64
  shapeCasts_S1x64x64_S64x64 : S1x64x64.ShapeCasts S64x64
  bcast_S_S50000x64 : S_.BroadcastsInDim S50000x64 (![] : Fin 0 → Fin S50000x64.rank)
  slices_S2x64x64_S1x64x64_1_0_0 : S2x64x64.Slices ![1, 0, 0] S1x64x64
  gather_S50000x64_S800000x1_S800000x64_1_0_n_n_0_1_164_wf : GatherDims.WF S50000x64 S800000x1 S800000x64 [1] [0] [] [0] [] 1 ![1, 64]
  gather_S64x64_S800000x1_S800000x64_1_0_n_n_0_1_164_wf : GatherDims.WF S64x64 S800000x1 S800000x64 [1] [0] [] [0] [] 1 ![1, 64]
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S64x64_S800000x1_S800000x64_1_0_n_n_0_1_164 : GatherDims S64x64 S800000x1 S800000x64 where
  offsetDims := [1]
  collapsedSliceDims := [0]
  operandBatchingDims := []
  startIndicesBatchingDims := []
  startIndexMap := [0]
  indexVectorDim := 1
  sliceSizes := ![1, 64]
  wf := gather_S64x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The mathematics both programs compute, stated once over literal shapes.

  Two rounds of relational message passing on a graph of 50000 nodes and 800000 edges with 64 features. In one round
  every edge `e` carries the message `h[src e, d] * rel[etype e, d]`, and node `v` receives the sum of the messages of
  the edges whose destination is `v`:

      layer h rel (v, d) = ∑ e, if dst e = v then h (row (src e), d) * rel (row (etype e), d) else 0.

  An edge whose destination is not a node (negative, or 50000 and more) is received by nobody. A row index is read the
  way array indexing reads it: a negative index counts from the end (`wrapIdx`), and the result is clamped into the
  table (`clampRow`). The result of the program is the second round applied to the first, each with its own slice
  of the relation table.
-/
import Idealize.ShloMosaic.PureOps.Ideal
import Idealize.ShloMosaic.Lib.ValueIdx

noncomputable section

open scoped BigOperators

namespace Cert.Spec

open Idealize.ShloMosaic Idealize.ShloMosaic.ValueIdx

/-- Array indexing's reading of a signed index into an axis of extent `n`: a negative index counts from the end. -/
def wrapIdx (n x : BitVec 32) : BitVec 32 :=
  Scalar.select (IntOp.cmpi .slt x 0#32) (IntOp.addi x n) x

/-- A gather's reading of a signed start index into a table of `n` rows: clamped into `0 … n - 1`. -/
def clampRow (n : Nat) (hn : 0 < n) (x : BitVec 32) : Fin n :=
  ⟨min x.toInt.toNat (n - 1), by omega⟩

/-- The weight the relation `k` gets from an edge of type word `w`: one when `w` is `k`, zero otherwise, as the
    conversion of the comparison's bit to a float. -/
def oneHot (k : Fin 64) (w : BitVec 32) : EReal :=
  FloatOps.sitofp (F := Ideal) .f32 ((IntOp.cmpi .eq (BitVec.ofNat 32 k.val) w).setWidth 32)

/-- One round of message passing at node `v` and feature `d`. -/
def layerAt (h : (⟨2, ![50000, 64]⟩ : Shape).Idx → EReal) (rel : (⟨2, ![64, 64]⟩ : Shape).Idx → EReal)
    (src dst etype : (⟨1, ![800000]⟩ : Shape).Idx → BitVec 32) (v : Fin 50000) (d : Fin 64) : EReal :=
  ∑ e : Fin 800000,
    if (dst (ix1 e)).toInt = (v.val : ℤ) then
      h (ix2 (clampRow 50000 (by decide) (wrapIdx 50000#32 (src (ix1 e)))) d)
        * rel (ix2 (clampRow 64 (by decide) (wrapIdx 64#32 (etype (ix1 e)))) d)
    else 0

/-- One round of message passing, as an array. -/
def layer (h : (⟨2, ![50000, 64]⟩ : Shape).Idx → EReal) (rel : (⟨2, ![64, 64]⟩ : Shape).Idx → EReal)
    (src dst etype : (⟨1, ![800000]⟩ : Shape).Idx → BitVec 32) : (⟨2, ![50000, 64]⟩ : Shape).Idx → EReal :=
  fun i => layerAt h rel src dst etype (i 0) (i 1)

theorem layer_ix2 (h : (⟨2, ![50000, 64]⟩ : Shape).Idx → EReal) (rel : (⟨2, ![64, 64]⟩ : Shape).Idx → EReal)
    (src dst etype : (⟨1, ![800000]⟩ : Shape).Idx → BitVec 32) (v : Fin 50000) (d : Fin 64) :
    layer h rel src dst etype (ix2 v d) = layerAt h rel src dst etype v d := rfl

/-- Slice `l` of the relation table. -/
def relOf (l : Fin 2) (r : (⟨3, ![2, 64, 64]⟩ : Shape).Idx → EReal) : (⟨2, ![64, 64]⟩ : Shape).Idx → EReal :=
  fun i => r (ix3 l (i 0) (i 1))

/-- The program's result: two rounds, the second over the first's result. -/
def G (h0 : (⟨2, ![50000, 64]⟩ : Shape).Idx → EReal) (r : (⟨3, ![2, 64, 64]⟩ : Shape).Idx → EReal)
    (src dst etype : (⟨1, ![800000]⟩ : Shape).Idx → BitVec 32) : (⟨2, ![50000, 64]⟩ : Shape).Idx → EReal :=
  layer (layer h0 (relOf 0 r) src dst etype) (relOf 1 r) src dst etype

end Cert.Spec

end
-- ==== Proof.LibRowGather.lean ====
/-
  A gather of whole rows, read at an index.

  What `x[idx]` of a table `x : [N, D]` at a column of indices `idx : [E, 1]` lowers to: a `stablehlo.gather` with
  offset_dims `[1]`, collapsed_slice_dims `[0]`, start_index_map `[0]`, index_vector_dim `1` and slice sizes `[1, D]`.
  Element `(e, c)` of the result is the table's element `(r, c)`, where `r` is the start index `idx[e, 0]` read as a
  signed integer and clamped into `0 … N - 1`.

  The road is the one the library takes for a flat array (`gather_take_apply`): the operand index is, per operand axis,
  clamped start + batching coordinate + offset coordinate. On axis `0` (collapsed, named by the start index map) only the
  clamped start is left; on axis `1` (the offset axis) only the offset coordinate. The lemma is first proved for the
  dimension numbers written out (`rowDims`), then for any record whose fields have those values.
-/
import Idealize.ShloMosaic.PureOps.Ideal
import Idealize.ShloMosaic.Lib.ValueIdx

noncomputable section

namespace Cert.LibRowGather

open Idealize.ShloMosaic Idealize.ShloMosaic.ValueIdx

section RowGather
variable {α : Type}

/-- The row gather's dimension numbers written out, for a table `[N, D]`, start indices `[E, 1]` and result `[E, D]`.
    The start indices' batching axes `sb` are left open: the conditions `wf` force the list to be empty, and nothing
    below reads it. -/
abbrev rowDims (N E D : Nat) (sb : List (Fin (⟨2, ![E, 1]⟩ : Shape).rank))
    (wf : GatherDims.WF ⟨2, ![N, D]⟩ ⟨2, ![E, 1]⟩ ⟨2, ![E, D]⟩ [1] [0] [] [0] sb 1 ![1, D]) :
    GatherDims ⟨2, ![N, D]⟩ ⟨2, ![E, 1]⟩ ⟨2, ![E, D]⟩ where
  offsetDims := [1]
  collapsedSliceDims := [0]
  operandBatchingDims := []
  startIndicesBatchingDims := sb
  startIndexMap := [0]
  indexVectorDim := 1
  sliceSizes := ![1, D]
  wf := wf

variable {N E D w : Nat} (sb : List (Fin (⟨2, ![E, 1]⟩ : Shape).rank))
  (wf : GatherDims.WF ⟨2, ![N, D]⟩ ⟨2, ![E, 1]⟩ ⟨2, ![E, D]⟩ [1] [0] [] [0] sb 1 ![1, D])

/-- Where result element `(e, c)` reads its start index: the only component of the start index map is component `0`,
    the result's one batch axis (axis `0`) is the start indices' axis `0`, and the index vector's axis (axis `1`, of
    size one) gets the component's number, so the place is `[e, 0]`. -/
theorem rowDims_siIdx (e : Fin E) (c : Fin D) (h0 : (0 : Fin 2) ∈ (rowDims N E D sb wf).startIndexMap) :
    (rowDims N E D sb wf).siIdx (ix2 e c) ⟨List.idxOf (0 : Fin 2) (rowDims N E D sb wf).startIndexMap,
        List.idxOf_lt_length_iff.2 h0⟩ = ix2 e (0 : Fin 1) := by
  funext b
  refine Fin.ext ?_
  match b with
  | ⟨0, _⟩ => rfl
  | ⟨1, _⟩ => rfl

/-- Axis `0` of the operand index (the collapsed axis, named by the start index map): the start index clamped into
    `0 … N - 1`; no batching coordinate (there are no batching axes) and no offset (the axis is collapsed). -/
theorem rowDims_axis0 (idx : IVec (⟨2, ![E, 1]⟩ : Shape) w) (e : Fin E) (c : Fin D) :
    (rowDims N E D sb wf).start (ix2 e c) idx 0 + (rowDims N E D sb wf).batchCoord (ix2 e c) 0
        + (rowDims N E D sb wf).offCoord (ix2 e c) 0
      = min (idx (ix2 e (0 : Fin 1))).toInt.toNat (N - 1) := by
  have h0 : (0 : Fin 2) ∈ (rowDims N E D sb wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  show (rowDims N E D sb wf).start (ix2 e c) idx 0 = _
  unfold GatherDims.start
  rw [dif_pos h0, rowDims_siIdx sb wf e c h0]
  rfl

/-- Axis `1` of the operand index (the one offset axis, not named by the start index map): the slice starts at `0`,
    there is no batching coordinate, and the offset is the result's coordinate on its offset axis, `c`. -/
theorem rowDims_axis1 (idx : IVec (⟨2, ![E, 1]⟩ : Shape) w) (e : Fin E) (c : Fin D) :
    (rowDims N E D sb wf).start (ix2 e c) idx 1 + (rowDims N E D sb wf).batchCoord (ix2 e c) 1
        + (rowDims N E D sb wf).offCoord (ix2 e c) 1
      = c.val := by
  have h10 : (1 : Fin 2) ≠ 0 := by decide
  have h1 : (1 : Fin 2) ∉ (rowDims N E D sb wf).startIndexMap := fun h => h10 (List.mem_singleton.mp h)
  have hk : (1 : Fin 2) ∈ (rowDims N E D sb wf).sKept :=
    (GatherDims.mem_sKept _ _).mpr ⟨fun h => h10 (List.mem_singleton.mp h), List.not_mem_nil⟩
  rw [GatherDims.batchCoord_eq_zero _ _ _ List.not_mem_nil, Nat.add_zero]
  unfold GatherDims.start GatherDims.offCoord
  rw [dif_neg h1, dif_pos hk, Nat.zero_add]
  rfl

/-- The row gather of the written-out dimension numbers, read at `(e, c)`. -/
theorem rowDims_apply (hN : 0 < N) (x : (⟨2, ![N, D]⟩ : Shape).Idx → α) (idx : IVec (⟨2, ![E, 1]⟩ : Shape) w)
    (e : Fin E) (c : Fin D) :
    Host.gather (rowDims N E D sb wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact rowDims_axis0 sb wf idx e c
  | ⟨1, _⟩ => exact rowDims_axis1 sb wf idx e c

end RowGather

/-- THE ROW GATHER READ AT `(e, c)`: for any dimension-number record of the row-gather form, the operand at the row the
    start index `idx[e, 0]` names (signed, clamped into `0 … N - 1`) and the same column. -/
theorem rowGather_apply {α : Type} {N E D w : Nat} (hN : 0 < N)
    (g : GatherDims (⟨2, ![N, D]⟩ : Shape) (⟨2, ![E, 1]⟩ : Shape) (⟨2, ![E, D]⟩ : Shape))
    (hod : g.offsetDims = [1]) (hcs : g.collapsedSliceDims = [0]) (hob : g.operandBatchingDims = [])
    (hsm : g.startIndexMap = [0]) (hiv : g.indexVectorDim = 1) (hss : g.sliceSizes = ![1, D])
    (x : (⟨2, ![N, D]⟩ : Shape).Idx → α) (idx : IVec (⟨2, ![E, 1]⟩ : Shape) w) (e : Fin E) (c : Fin D) :
    Host.gather g x idx (ix2 e c)
      = x (ix2 (⟨min (idx (ix2 e (0 : Fin 1))).toInt.toNat (N - 1), by omega⟩ : Fin N) c) := by
  -- a record with these field values IS the written-out one: name its fields and substitute the six equations
  obtain ⟨od, cs, ob, sb, sm, iv, ss, wf⟩ := g
  dsimp only at hod hcs hob hsm hiv hss
  subst hod hcs hob hsm hiv hss
  exact rowDims_apply sb wf hN x idx e c

end Cert.LibRowGather

end
-- ==== Proof.LibRowScatter.lean ====
/-
  A scatter-add of whole rows, read at an index, over the extended reals.

  What `zeros.at[idx].add(upd)` (a segment sum) of updates `upd : [E, D]` at a column of row indices `idx : [E, 1]` into
  an operand `x : [N, D]` lowers to: a `stablehlo.scatter` with an add body, update_window_dims `[1]`,
  inserted_window_dims `[0]`, scatter_dims_to_operand_dims `[0]` and index_vector_dim `1`. Over the extended reals
  element `(v, c)` of the result is the operand's plus the sum of the updates `upd[e, c]` over the rows `e` whose index
  `idx[e, 0]`, read as a signed integer and NOT clamped, is `v`: an update whose index is no row of the operand is
  dropped.
-/
import Idealize.ShloMosaic.PureOps.Ideal
import Idealize.ShloMosaic.Lib.ValueIdx

noncomputable section

open scoped BigOperators

namespace Cert.LibRowScatter

open Idealize.ShloMosaic Idealize.ShloMosaic.ValueIdx

/-! ## The four coordinates of the landing index

For an update index `(e, c')`: on the operand's row axis the window starts at the signed word `idx[e, 0]` and has
coordinate `0` (the axis is inserted); on the column axis it starts at `0` and has coordinate `c'`. Each fact is read off
the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the column axis, which the map does not name, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  rfl

/-- The row axis is inserted: its window coordinate is `0`. -/
theorem window_row (e : Fin E) (c' : Fin D) : s.window (ix2 e c') 0 = 0 := by
  obtain ⟨uw, iw, sd, iv, wf⟩ := s
  subst huw hiw hsd hiv
  rfl

/-- The column axis carries the update's one window axis: its window coordinate is the update's column. -/
theorem window_col (e : Fin E) (c' : Fin D) : s.window (ix2 e c') 1 = c'.val := by
  obtain ⟨uw, iw, sd, iv, wf⟩ := s
  subst huw hiw hsd hiv
  rfl

/-- WHERE AN UPDATE LANDS: update index `(e, c')` lands on `(v, c)` exactly when the signed index of row `e` is `v`
    and `c'` is `c`. Left to right the landing index exists, so the row's start is nonnegative and its `toNat` is `v`;
    right to left both sums are in range (`v < N`, `c' < D`) and the index built from them is `(v, c)`. -/
theorem resultIdx?_eq_some_iff (idx : IVec (⟨2, ![E, 1]⟩ : Shape) w) (e : Fin E) (c' : Fin D) (v : Fin N) (c : Fin D) :
    s.resultIdx? (ix2 e c') idx = some (ix2 v c)
      ↔ (idx (ix2 e (0 : Fin 1))).toInt = (v.val : ℤ) ∧ c'.val = c.val := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      constructor <;> omega
    · exact absurd h (by simp)
  · rintro ⟨hv, hc⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c.val
      rw [h1, w1]; omega

end Coordinates

/-! ## The sum over the landing updates, row by row -/

/-- A sum over the columns of a term guarded by "`A` holds and the column is `c`" is the term at `c` guarded by `A`:
    when `A` holds only the column `c` contributes, and when it fails every term is `0`. -/
theorem sum_guarded_column {D : Nat} (A : Prop) [Decidable A] (c : Fin D) (f : Fin D → EReal) :
    (∑ c' : Fin D, if A ∧ c'.val = c.val then f c' else 0) = if A then f c else 0 := by
  by_cases hA : A
  · rw [if_pos hA]
    refine (Finset.sum_eq_single c (fun b _ hb => if_neg fun h => hb (Fin.ext h.2))
      (fun h => absurd (Finset.mem_univ c) h)).trans ?_
    exact if_pos ⟨hA, rfl⟩
  · rw [if_neg hA]
    exact Finset.sum_eq_zero fun b _ => if_neg fun h => hA h.1

/-- The sum of the updates that land on `(v, c)` is the sum over the update rows `e` whose signed index is `v` of the
    update's element `(e, c)`: the filtered sum is a sum of guarded terms over all update indices, that is a double sum
    over rows and columns, and in each row the guard keeps the one column `c`. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  refine (Finset.sum_congr rfl fun c' _ => ?_).trans
    (sum_guarded_column ((idx (ix2 e (0 : Fin 1))).toInt = (v.val : ℤ)) c fun c' => upd (ix2 e c'))
  exact if_congr (resultIdx?_eq_some_iff s huw hiw hsd hiv idx e c' v c) rfl rfl

/-- THE ROW SCATTER-ADD READ AT `(v, c)`: for any dimension-number record of the segment-sum form, the operand's element
    plus the sum over the update rows `e` whose signed index is `v` of the update's element `(e, c)`. -/
theorem rowScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowScatter

end
-- ==== Proof.KLayer.lean ====
/-
  One round of the kernel's host side, as a function of what it reads, and that it is a round of message passing.

  Around each relation-lookup region the kernel's program gathers the node rows `h[src]`, multiplies them with the
  region's output `relvec`, scatter-adds the products by destination into 50001 rows and keeps the first 50000. It
  does so over 802816 edges: the 800000 real ones followed by 2816 padding edges whose destination is the extra row
  50000. A padding edge therefore reaches no kept row, whatever its source and relation; a real edge contributes what
  it contributes in the reference, provided its `relvec` row is its relation's row of the table. Splitting the sum over
  802816 edges into the first 800000 and the rest gives the round of the specification.
-/
import proofs.«421421_j48120813584781_3_alg».proof.KernelIdeal
import proofs.«421421_j48120813584781_3_alg».proof.Proof.Gen.KernelIdeal
import proofs.«421421_j48120813584781_3_alg».proof.Proof.Spec
import proofs.«421421_j48120813584781_3_alg».proof.Proof.LibRowGather
import proofs.«421421_j48120813584781_3_alg».proof.Proof.LibRowScatter
import Idealize.ShloMosaic.Lib.Pipeline.Value
import Idealize.ShloMosaic.Lib.ValueIdx
import Idealize.ShloMosaic.PureOps.Ideal.Laws

noncomputable section

open scoped BigOperators

namespace Cert.KernelIdeal.KLayer

open Cert.KernelIdeal Cert.KernelIdeal.Gen Idealize.ShloMosaic Idealize.ShloMosaic.ValueIdx

/-- The host operations of one round, composed: from the node features `h`, the region's output `relvec` and the
    padded source and destination columns to the next node features. -/
def kLayer (h : FVec Ideal S50000x64 .f32) (relvec : FVec Ideal S802816x64 .f32) (srcp dstp : IVec S802816 32) :
    FVec Ideal S50000x64 .f32 :=
  extractStridedSlice S50000x64 ![0, 0]
    (Host.scatterAdd scatter_S50001x64_S802816x1_S802816x64_1_0_0_1
      (broadcastInDim S50001x64 ![] bcast_S_S50001x64 (constant (F := Ideal) S_ .f32 0x00000000#32))
      (broadcastInDim S802816x1 ![0] bcast_S802816_S802816x1_0 dstp)
      (mulf
        (Host.gather gather_S50000x64_S802816x1_S802816x64_1_0_n_n_0_1_164 h
          (broadcastInDim S802816x1 ![0] bcast_S802816_S802816x1_0
            (select (cmpi .slt srcp (broadcastInDim S802816 ![] bcast_S_S802816 (constantI S_ 32 0#32)))
              (addi srcp (broadcastInDim S802816 ![] bcast_S_S802816 (constantI S_ 32 50000#32))) srcp)))
        relvec))
    slices_S50001x64_S50000x64_0_0

/-- A sum over `Fin m` whose terms vanish from `n` on is the sum of its first `n` terms. -/
theorem sum_fin_castLE {M : Type} [AddCommMonoid M] {n m : Nat} (hnm : n ≤ m) (f : Fin m → M)
    (hf : ∀ e : Fin m, n ≤ e.val → f e = 0) :
    ∑ e : Fin m, f e = ∑ e : Fin n, f (Fin.castLE hnm e) := by
  obtain ⟨k, rfl⟩ := Nat.exists_eq_add_of_le hnm
  have h0 : ∑ i : Fin k, f (Fin.natAdd n i) = 0 :=
    Finset.sum_eq_zero fun i _ => hf _ (Nat.le_add_right n i.val)
  rw [Fin.sum_univ_add, h0, add_zero]
  rfl

/-- The padding edges' destination word, read as a signed integer, is the extra row's number. -/
theorem toInt_pad : (50000#32 : BitVec 32).toInt = 50000 := by decide

/-- A word splat over the 802816 edges reads the word at every edge. -/
theorem splat_apply (c : BitVec 32) (e : Fin 802816) :
    broadcastInDim S802816 ![] bcast_S_S802816 (constantI S_ 32 c) (ix1 e) = c := rfl

/-- A column `[802816, 1]` broadcast from a vector of 802816 entries reads the vector at the row. -/
theorem column_apply {α : Type} (x : S802816.Idx → α) (e : Fin 802816) :
    broadcastInDim S802816x1 ![0] bcast_S802816_S802816x1_0 x (ix2 e (0 : Fin 1)) = x (ix1 e) :=
  broadcastInDim_apply ![0] bcast_S802816_S802816x1_0 x (ix2 e (0 : Fin 1)) (ix1 e) fun a => by
    match a with
    | ⟨0, _⟩ => exact (if_neg (by decide : ¬ (802816 : Nat) = 1)).symm

/-- The source word as the gather reads it, at edge `e`: a negative word counted from the end of the 50000 rows. -/
theorem wrapped_apply (srcp : IVec S802816 32) (e : Fin 802816) :
    select (cmpi .slt srcp (broadcastInDim S802816 ![] bcast_S_S802816 (constantI S_ 32 0#32)))
        (addi srcp (broadcastInDim S802816 ![] bcast_S_S802816 (constantI S_ 32 50000#32))) srcp (ix1 e)
      = Cert.Spec.wrapIdx 50000#32 (srcp (ix1 e)) := by
  rw [select_apply]
  unfold Cert.Spec.wrapIdx cmpi addi
  rw [splat_apply, splat_apply]

/-- The same word in the column of start indices. -/
theorem start_apply (srcp : IVec S802816 32) (e : Fin 802816) :
    broadcastInDim S802816x1 ![0] bcast_S802816_S802816x1_0
        (select (cmpi .slt srcp (broadcastInDim S802816 ![] bcast_S_S802816 (constantI S_ 32 0#32)))
          (addi srcp (broadcastInDim S802816 ![] bcast_S_S802816 (constantI S_ 32 50000#32))) srcp) (ix2 e (0 : Fin 1))
      = Cert.Spec.wrapIdx 50000#32 (srcp (ix1 e)) :=
  (column_apply _ e).trans (wrapped_apply srcp e)

/-- The gathered row of edge `e`: the row of `h` its source word names, clamped into the table. -/
theorem gathered_apply (h : FVec Ideal S50000x64 .f32) (srcp : IVec S802816 32) (e : Fin 802816) (d : Fin 64) :
    Host.gather gather_S50000x64_S802816x1_S802816x64_1_0_n_n_0_1_164 h
        (broadcastInDim S802816x1 ![0] bcast_S802816_S802816x1_0
          (select (cmpi .slt srcp (broadcastInDim S802816 ![] bcast_S_S802816 (constantI S_ 32 0#32)))
            (addi srcp (broadcastInDim S802816 ![] bcast_S_S802816 (constantI S_ 32 50000#32))) srcp)) (ix2 e d)
      = h (ix2 (Cert.Spec.clampRow 50000 (by decide) (Cert.Spec.wrapIdx 50000#32 (srcp (ix1 e)))) d) :=
  (Cert.LibRowGather.rowGather_apply (by decide) gather_S50000x64_S802816x1_S802816x64_1_0_n_n_0_1_164
      rfl rfl rfl rfl rfl rfl h _ e d).trans
    (congrArg (fun x => h (ix2 (Cert.Spec.clampRow 50000 (by decide) x) d)) (start_apply srcp e))

/-- The first 50000 of 50001 rows: row `v` of the slice is row `v` of the array. -/
theorem slice_apply {α : Type} (X : S50001x64.Idx → α) (v : Fin 50000) (d : Fin 64) (hv : v.val < 50001) :
    extractStridedSlice S50000x64 ![0, 0] X slices_S50001x64_S50000x64_0_0 (ix2 v d)
      = X (ix2 (⟨v.val, hv⟩ : Fin 50001) d) :=
  extractStridedSlice_apply ![0, 0] X slices_S50001x64_S50000x64_0_0 (ix2 v d)
    (ix2 (⟨v.val, hv⟩ : Fin 50001) d) fun a => by
    match a with
    | ⟨0, _⟩ => exact (Nat.zero_add _).symm
    | ⟨1, _⟩ => exact (Nat.zero_add _).symm

/-- The round read at node `v` and feature `d`, before the padding edges are dropped: the sum over all 802816 edges
    of the messages whose destination word is `v`. -/
theorem kLayer_apply (h : FVec Ideal S50000x64 .f32) (relvec : FVec Ideal S802816x64 .f32) (srcp dstp : IVec S802816 32)
    (v : Fin 50000) (d : Fin 64) :
    kLayer h relvec srcp dstp (ix2 v d)
      = ∑ e : Fin 802816,
          if (dstp (ix1 e)).toInt = (v.val : ℤ) then
            h (ix2 (Cert.Spec.clampRow 50000 (by decide) (Cert.Spec.wrapIdx 50000#32 (srcp (ix1 e)))) d)
              * relvec (ix2 e d)
          else 0 := by
  have hv : v.val < 50001 := v.isLt.trans (by decide)
  unfold kLayer
  -- the kept row `v` of the 50001 accumulated rows
  refine (slice_apply _ v d hv).trans ?_
  -- the accumulation into that row: the zero it starts from, plus the updates whose index word is `v`
  refine (Cert.LibRowScatter.rowScatterAdd_apply scatter_S50001x64_S802816x1_S802816x64_1_0_0_1 rfl rfl rfl rfl _ _ _
    (⟨v.val, hv⟩ : Fin 50001) d).trans ?_
  have hz : broadcastInDim S50001x64 ![] bcast_S_S50001x64 (constant (F := Ideal) S_ .f32 0x00000000#32)
      (ix2 (⟨v.val, hv⟩ : Fin 50001) d) = 0 := Ideal.ofBits_zero_f32
  refine (congrArg₂ (· + ·) hz (Finset.sum_congr rfl fun e _ => ?_)).trans (zero_add _)
  -- one edge's update: the gathered row of `h` times the edge's row of `relvec`
  rw [column_apply dstp e, mulf_apply, gathered_apply]

/-- THE ROUND: with the padded columns agreeing with the real ones on the first 800000 edges, the padding edges sent
    to row 50000, and each real edge's `relvec` row its relation's row of `rel`, the host operations compute the
    specification's round. -/
theorem kLayer_eq (h : FVec Ideal S50000x64 .f32) (rel : S64x64.Idx → EReal) (relvec : FVec Ideal S802816x64 .f32)
    (src dst etype : S800000.Idx → BitVec 32) (srcp dstp : IVec S802816 32)
    (hsrc : ∀ (e : Fin 802816) (he : e.val < 800000), srcp (ix1 e) = src (ix1 ⟨e.val, he⟩))
    (hdst : ∀ (e : Fin 802816) (he : e.val < 800000), dstp (ix1 e) = dst (ix1 ⟨e.val, he⟩))
    (hpad : ∀ e : Fin 802816, 800000 ≤ e.val → dstp (ix1 e) = 50000#32)
    (hrel : ∀ (e : Fin 802816) (he : e.val < 800000) (d : Fin 64),
      relvec (ix2 e d)
        = rel (ix2 (Cert.Spec.clampRow 64 (by decide) (Cert.Spec.wrapIdx 64#32 (etype (ix1 ⟨e.val, he⟩)))) d)) :
    kLayer h relvec srcp dstp = Cert.Spec.layer h rel src dst etype := by
  funext i
  obtain ⟨v, d, rfl⟩ : ∃ (v : Fin 50000) (d : Fin 64), i = ix2 v d := ⟨i 0, i 1, eq_ix2 i⟩
  rw [Cert.Spec.layer_ix2, kLayer_apply]
  have hle : 800000 ≤ 802816 := by decide
  refine (sum_fin_castLE hle _ fun e he => ?_).trans ?_
  · -- a padding edge: its destination word is 50000, which is no kept row
    have hv : ¬ ((50000 : ℤ) = (v.val : ℤ)) := by have := v.isLt; omega
    beta_reduce
    rw [hpad e he, toInt_pad]
    exact if_neg hv
  · -- a real edge: the padded columns and `relvec` read what the reference reads
    unfold Cert.Spec.layerAt
    refine Finset.sum_congr rfl fun e _ => ?_
    have e1 : srcp (ix1 (Fin.castLE hle e)) = src (ix1 e) := hsrc (Fin.castLE hle e) e.isLt
    have e2 : dstp (ix1 (Fin.castLE hle e)) = dst (ix1 e) := hdst (Fin.castLE hle e) e.isLt
    have e3 : relvec (ix2 (Fin.castLE hle e) d)
        = rel (ix2 (Cert.Spec.clampRow 64 (by decide) (Cert.Spec.wrapIdx 64#32 (etype (ix1 e)))) d) :=
      hrel (Fin.castLE hle e) e.isLt d
    beta_reduce
    rw [e1, e2, e3]

end Cert.KernelIdeal.KLayer

end
-- ==== Proof.KernelReads.lean ====
/-
  What the kernel's program holds in its buffers on the way: the fold of buffer contents through @main, read at the
  buffers the two rounds use.

  Before the first region the program pads the three edge columns from 800000 to 802816 entries (sources and types
  with 0, destinations with 50000), lays the padded types out as one row, and takes slice 0 of the relation table as
  the region's second operand. After each region the host operations of a round run on the region's output. None of
  these buffers is written twice, so each is read back through the fold to the operation that wrote it.
-/
import proofs.«421421_j48120813584781_3_alg».proof.Proof.Gen.KernelIdeal.Frame
import proofs.«421421_j48120813584781_3_alg».proof.Proof.KLayer
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

set_option maxRecDepth 16384
set_option Elab.async false

noncomputable section

namespace Cert.KernelIdeal.KReads

open Cert.KernelIdeal Cert.KernelIdeal.Gen Cert.KernelIdeal.KLayer
open Idealize.ShloMosaic Idealize.ShloMosaic.TcCoe Idealize.ShloMosaic.StableHlo Idealize.ShloMosaic.ValueIdx
open Idealize.SL.Sem

/-! ## A column padded at its end -/

/-- An edge column of 800000 words followed by 2816 copies of the word `z`. -/
def padCol (x : IVec S800000 32) (z : BitVec 32) : IVec S802816 32 :=
  pad S802816 ![0] ![2816] ![0] x (constantI S_ 32 z) pads_S800000_S802816_028160 h_S_

/-- On the first 800000 entries the padded column is the column. -/
theorem padCol_lo (x : IVec S800000 32) (z : BitVec 32) (e : Fin 802816) (he : e.val < 800000) :
    padCol x z (ix1 e) = x (ix1 ⟨e.val, he⟩) :=
  pad_apply_of_inside _ _ _ x _ pads_S800000_S802816_028160 h_S_ (ix1 e) (ix1 ⟨e.val, he⟩) (fun a => match a with
    | ⟨0, _⟩ => by show e.val = 0 + e.val * (0 + 1); omega)

/-- From entry 800000 on it is the padding word. -/
theorem padCol_hi (x : IVec S800000 32) (z : BitVec 32) (e : Fin 802816) (he : 800000 ≤ e.val) :
    padCol x z (ix1 e) = z :=
  pad_apply_of_not_inside _ _ _ x _ pads_S800000_S802816_028160 h_S_ (ix1 e) (0 : Fin 1) (by
    show ¬(0 ≤ e.val ∧ (e.val - 0) % (0 + 1) = 0 ∧ (e.val - 0) / (0 + 1) < 800000)
    omega)

variable (m : (ℓ : Loc nD τ sig) → Buf (Elt Ideal) ℓ) (ρ : Dev nD → PrngReg)

/-! ## The contents when the first region is entered -/

/-- The padded sources. -/
theorem W7_v0 (c : Dev nD) :
    W7 m ρ c (Proc.devRef .tc main_v0) = padCol (m ((c : Thread nD τ).loc main_arg2)) 0#32 := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_v0) = _
  after_results_simp <;> rfl

/-- The padded destinations. -/
theorem W7_v1 (c : Dev nD) :
    W7 m ρ c (Proc.devRef .tc main_v1) = padCol (m ((c : Thread nD τ).loc main_arg3)) 50000#32 := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_v1) = _
  after_results_simp <;> rfl

/-- The padded edge types, laid out as one row: column `e` of the row is entry `e` of the padded column (the two have
    the same row-major position). -/
theorem W7_v3_at (c : Dev nD) (e : Fin 802816) :
    (W7 m ρ c (Proc.devRef .tc main_v3) : S1x802816.Idx → BitVec 32) (ix2 (0 : Fin 1) e)
      = padCol (m ((c : Thread nD τ).loc main_arg4)) 0#32 (ix1 e) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_v3) (ix2 (0 : Fin 1) e) = _
  after_results_simp
  refine (shapeCast_apply _ shapeCasts_S802816_S1x802816 (ix2 (0 : Fin 1) e) (ix1 e) ?_).trans rfl
  show (S802816.rowMajor (ix1 e)).val = (S1x802816.rowMajor (ix2 (0 : Fin 1) e)).val
  rw [Shape.rowMajor_val_one, Shape.rowMajor_val_two]
  show e.val = 0 * 802816 + e.val
  omega

/-- Slice 0 of the relation table, as the region's second operand. -/
theorem W7_v6 (c : Dev nD) :
    (W7 m ρ c (Proc.devRef .tc main_v6) : FVec Ideal S64x64 .bf16)
      = (truncf .bf16 (shapeCast S64x64 (extractStridedSlice S1x64x64 ![0, 0, 0] (m ((c : Thread nD τ).loc main_arg1))
          slices_S2x64x64_S1x64x64_0_0_0) shapeCasts_S1x64x64_S64x64) bitsLt_bf16_f32 : FVec Ideal S64x64 .bf16) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_v6) = _
  after_results_simp <;> rfl

/-- The node features, untouched. -/
theorem W7_arg0 (c : Dev nD) : W7 m ρ c (Proc.devRef .tc main_arg0) = m ((c : Thread nD τ).loc main_arg0) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_arg0) = _
  after_results_simp <;> rfl

/-- The relation table, untouched. -/
theorem W7_arg1 (c : Dev nD) : W7 m ρ c (Proc.devRef .tc main_arg1) = m ((c : Thread nD τ).loc main_arg1) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_arg1) = _
  after_results_simp <;> rfl

end Cert.KernelIdeal.KReads

end
-- ==== Proof.KernelReads2.lean ====
/-
  What the kernel's program holds in its buffers from the first region's exit to the return: the fold of buffer contents
  through @main, continued.

  A region changes only its output array, which ends at what its write-backs leave; the stretch of host operations after
  it computes a round from that array, the node features and the padded columns, and (between the regions) takes
  slice 1 of the relation table for the second region. The result buffer at the return is the second round's
  operations over the first round's result.
-/
import proofs.«421421_j48120813584781_3_alg».proof.Proof.KernelReads

set_option maxRecDepth 16384
set_option Elab.async false

noncomputable section

namespace Cert.KernelIdeal.KReads

open Cert.KernelIdeal Cert.KernelIdeal.Gen Cert.KernelIdeal.KLayer
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg)

/-! ## The contents when the first region is left: its output array at what its write-backs leave, the rest as entered -/

theorem W8_v0 (c : Dev nD) :
    W8 m ρ c (Proc.devRef .tc main_v0) = padCol (m ((c : Thread nD τ).loc main_arg2)) 0#32 :=
  (W8_of_ne m ρ c main_v0 (by decide)).trans (W7_v0 m ρ c)

theorem W8_v1 (c : Dev nD) :
    W8 m ρ c (Proc.devRef .tc main_v1) = padCol (m ((c : Thread nD τ).loc main_arg3)) 50000#32 :=
  (W8_of_ne m ρ c main_v1 (by decide)).trans (W7_v1 m ρ c)

theorem W8_arg0 (c : Dev nD) : W8 m ρ c (Proc.devRef .tc main_arg0) = m ((c : Thread nD τ).loc main_arg0) :=
  (W8_of_ne m ρ c main_arg0 (by decide)).trans (W7_arg0 m ρ c)

theorem W8_arg1 (c : Dev nD) : W8 m ρ c (Proc.devRef .tc main_arg1) = m ((c : Thread nD τ).loc main_arg1) :=
  (W8_of_ne m ρ c main_arg1 (by decide)).trans (W7_arg1 m ρ c)

/-- The row of padded edge types is the first region's first operand: an input window's array is left as entered. -/
theorem W8_v3 (c : Dev nD) : W8 m ρ c (Proc.devRef .tc main_v3) = W7 m ρ c (Proc.devRef .tc main_v3) :=
  (W8_arr m ρ c 0).trans (((dat0 (V7 m ρ) c).arrAt_in 0 rfl cfg0.N).trans (A_eq0 (V7 m ρ) c 0))

/-- The first region's output array. -/
theorem W8_v7 (c : Dev nD) :
    W8 m ρ c (Proc.devRef .tc main_v7) = (dat0 (V7 m ρ) c).arrAt 2 cfg0.N :=
  W8_arr m ρ c 2

/-! ## The contents when the second region is entered: the first round done -/

/-- The first round's result over the contents at the first region's exit. -/
theorem W9_v19_of_exit (c : Dev nD) :
    W9 m ρ c (Proc.devRef .tc main_v19)
      = kLayer (W8 m ρ c (Proc.devRef .tc main_arg0)) (W8 m ρ c (Proc.devRef .tc main_v7))
          (W8 m ρ c (Proc.devRef .tc main_v0)) (W8 m ρ c (Proc.devRef .tc main_v1)) := by
  show StableHlo.after hostOps1 (W8 m ρ c) (Proc.devRef .tc main_v19) = _
  after_results_simp <;> rfl

/-- The first round's result: the round's host operations on the first region's output, the node features and the
    padded columns. -/
theorem W9_v19 (c : Dev nD) :
    W9 m ρ c (Proc.devRef .tc main_v19)
      = kLayer (m ((c : Thread nD τ).loc main_arg0)) ((dat0 (V7 m ρ) c).arrAt 2 cfg0.N)
          (padCol (m ((c : Thread nD τ).loc main_arg2)) 0#32) (padCol (m ((c : Thread nD τ).loc main_arg3)) 50000#32) := by
  rw [W9_v19_of_exit, W8_arg0, W8_v7, W8_v0, W8_v1]

theorem W9_v0 (c : Dev nD) :
    W9 m ρ c (Proc.devRef .tc main_v0) = padCol (m ((c : Thread nD τ).loc main_arg2)) 0#32 := by
  refine Eq.trans ?_ (W8_v0 m ρ c)
  show StableHlo.after hostOps1 (W8 m ρ c) (Proc.devRef .tc main_v0) = _
  after_results_simp <;> rfl

theorem W9_v1 (c : Dev nD) :
    W9 m ρ c (Proc.devRef .tc main_v1) = padCol (m ((c : Thread nD τ).loc main_arg3)) 50000#32 := by
  refine Eq.trans ?_ (W8_v1 m ρ c)
  show StableHlo.after hostOps1 (W8 m ρ c) (Proc.devRef .tc main_v1) = _
  after_results_simp <;> rfl

/-- The row of padded edge types is the same buffer for both regions: nothing writes it after the first is entered. -/
theorem W9_v3 (c : Dev nD) : W9 m ρ c (Proc.devRef .tc main_v3) = W7 m ρ c (Proc.devRef .tc main_v3) := by
  refine Eq.trans ?_ (W8_v3 m ρ c)
  show StableHlo.after hostOps1 (W8 m ρ c) (Proc.devRef .tc main_v3) = _
  after_results_simp <;> rfl

/-- Slice 1 of the relation table over the contents at the first region's exit. -/
theorem W9_v22_of_exit (c : Dev nD) :
    (W9 m ρ c (Proc.devRef .tc main_v22) : FVec Ideal S64x64 .bf16)
      = (truncf .bf16 (shapeCast S64x64 (extractStridedSlice S1x64x64 ![1, 0, 0] (W8 m ρ c (Proc.devRef .tc main_arg1))
          slices_S2x64x64_S1x64x64_1_0_0) shapeCasts_S1x64x64_S64x64) bitsLt_bf16_f32 : FVec Ideal S64x64 .bf16) := by
  show StableHlo.after hostOps1 (W8 m ρ c) (Proc.devRef .tc main_v22) = _
  after_results_simp <;> rfl

/-- Slice 1 of the relation table, as the second region's second operand. -/
theorem W9_v22 (c : Dev nD) :
    (W9 m ρ c (Proc.devRef .tc main_v22) : FVec Ideal S64x64 .bf16)
      = (truncf .bf16 (shapeCast S64x64 (extractStridedSlice S1x64x64 ![1, 0, 0] (m ((c : Thread nD τ).loc main_arg1))
          slices_S2x64x64_S1x64x64_1_0_0) shapeCasts_S1x64x64_S64x64) bitsLt_bf16_f32 : FVec Ideal S64x64 .bf16) := by
  rw [W9_v22_of_exit, W8_arg1]

/-! ## The contents when the second region is left, and at the return -/

theorem W10_v19 (c : Dev nD) : W10 m ρ c (Proc.devRef .tc main_v19) = W9 m ρ c (Proc.devRef .tc main_v19) :=
  W10_of_ne m ρ c main_v19 (by decide)

theorem W10_v0 (c : Dev nD) :
    W10 m ρ c (Proc.devRef .tc main_v0) = padCol (m ((c : Thread nD τ).loc main_arg2)) 0#32 :=
  (W10_of_ne m ρ c main_v0 (by decide)).trans (W9_v0 m ρ c)

theorem W10_v1 (c : Dev nD) :
    W10 m ρ c (Proc.devRef .tc main_v1) = padCol (m ((c : Thread nD τ).loc main_arg3)) 50000#32 :=
  (W10_of_ne m ρ c main_v1 (by decide)).trans (W9_v1 m ρ c)

/-- The second region's output array. -/
theorem W10_v23 (c : Dev nD) :
    W10 m ρ c (Proc.devRef .tc main_v23) = (dat1 (V9 m ρ) c).arrAt 2 cfg1.N :=
  W10_arr m ρ c 2

/-- The result buffer at the return over the contents at the second region's exit. -/
theorem W11_v35_of_exit (c : Dev nD) :
    W11 m ρ c (Proc.devRef .tc main_v35)
      = kLayer (W10 m ρ c (Proc.devRef .tc main_v19)) (W10 m ρ c (Proc.devRef .tc main_v23))
          (W10 m ρ c (Proc.devRef .tc main_v0)) (W10 m ρ c (Proc.devRef .tc main_v1)) := by
  show StableHlo.after hostOps2 (W10 m ρ c) (Proc.devRef .tc main_v35) = _
  after_results_simp <;> rfl

/-- THE RESULT BUFFER at the return: the round's host operations on the second region's output, over the first
    round's result. -/
theorem W11_v35 (c : Dev nD) :
    W11 m ρ c (Proc.devRef .tc main_v35)
      = kLayer (W9 m ρ c (Proc.devRef .tc main_v19)) ((dat1 (V9 m ρ) c).arrAt 2 cfg1.N)
          (padCol (m ((c : Thread nD τ).loc main_arg2)) 0#32) (padCol (m ((c : Thread nD τ).loc main_arg3)) 50000#32) := by
  rw [W11_v35_of_exit, W10_v19, W10_v23, W10_v0, W10_v1]

end Cert.KernelIdeal.KReads

end
-- ==== Proof.Relvec0.lean ====
/-
  The first relation-lookup region, read as an array.

  The region runs over 98 blocks of 8192 edges. At a block it loads the block's edge types (one row of 8192 words) and
  the whole 64 x 64 relation slice, builds the 64 x 8192 matrix whose entry (k, p) is one when edge p's type is k
  and zero otherwise, and multiplies its transpose with the relation slice: row p of the result is
  ∑ k, [type p = k] * rel[k, ·]. The blocks tile the edge axis, so after the region row e of the output array is that
  sum for edge e.
-/
import proofs.«421421_j48120813584781_3_alg».proof.Proof.Gen.KernelIdeal.Frame
import proofs.«421421_j48120813584781_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Relvec0

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## The product read at an index

The product contracts axis 0 of both operands: entry (p, d) of the result is the sum over k of
lhs[k, p] * rhs[k, d]. -/

/-- On its contracted axis the left operand reads the contraction coordinate. -/
theorem lhs_axis0 (i : S8192x64.Idx) (q : dot_S64x8192_S64x64_S8192x64_0_0_1_1_n_n.contr.Idx) :
    (dot_S64x8192_S64x64_S8192x64_0_0_1_1_n_n.lhsIdx i q 0).val = (q ⟨0, by decide⟩).val :=
  dot_S64x8192_S64x64_S8192x64_0_0_1_1_n_n.lhsIdx_val_of_single rfl i q

/-- On its free axis the left operand reads the result's row. -/
theorem lhs_axis1 (i : S8192x64.Idx) (q : dot_S64x8192_S64x64_S8192x64_0_0_1_1_n_n.contr.Idx) :
    (dot_S64x8192_S64x64_S8192x64_0_0_1_1_n_n.lhsIdx i q 1).val = (i 0).val := by
  unfold DotDims.lhsIdx
  rw [dif_neg (show ¬(1 : Fin S64x8192.rank) ∈ dot_S64x8192_S64x64_S8192x64_0_0_1_1_n_n.lhsBatch by decide),
    dif_pos (show (1 : Fin S64x8192.rank) ∈ dot_S64x8192_S64x64_S8192x64_0_0_1_1_n_n.lhsNonContracting by decide)]
  rfl

/-- On its contracted axis the right operand reads the contraction coordinate. -/
theorem rhs_axis0 (i : S8192x64.Idx) (q : dot_S64x8192_S64x64_S8192x64_0_0_1_1_n_n.contr.Idx) :
    (dot_S64x8192_S64x64_S8192x64_0_0_1_1_n_n.rhsIdx i q 0).val = (q ⟨0, by decide⟩).val :=
  dot_S64x8192_S64x64_S8192x64_0_0_1_1_n_n.rhsIdx_val_of_single rfl i q

/-- On its free axis the right operand reads the result's column. -/
theorem rhs_axis1 (i : S8192x64.Idx) (q : dot_S64x8192_S64x64_S8192x64_0_0_1_1_n_n.contr.Idx) :
    (dot_S64x8192_S64x64_S8192x64_0_0_1_1_n_n.rhsIdx i q 1).val = (i 1).val := by
  unfold DotDims.rhsIdx
  rw [dif_neg (show ¬(1 : Fin S64x64.rank) ∈ dot_S64x8192_S64x64_S8192x64_0_0_1_1_n_n.rhsBatch by decide),
    dif_pos (show (1 : Fin S64x64.rank) ∈ dot_S64x8192_S64x64_S8192x64_0_0_1_1_n_n.rhsNonContracting by decide)]
  rfl

/-- The product into the zero accumulator, at row `p` and column `d`: the sum over the 64 contracted rows. -/
theorem matmul_read (lhs : FVec Ideal S64x8192 .bf16) (rhs : FVec Ideal S64x64 .bf16) (p : Fin 8192) (d : Fin 64) :
    matmul dot_S64x8192_S64x64_S8192x64_0_0_1_1_n_n none lhs rhs (constant (F := Ideal) S8192x64 .f32 0x00000000#32) (ix2 p d)
      = ∑ k : Fin 64, lhs (ix2 k p) * rhs (ix2 k d) := by
  simp only [matmul]
  rw [Ideal.matmul_constant_zero_apply,
    ← Equiv.sum_comp (contrEquiv1 dot_S64x8192_S64x64_S8192x64_0_0_1_1_n_n 64 rfl rfl).symm]
  refine Finset.sum_congr rfl fun k _ => ?_
  have hk := contrEquiv1_symm_val dot_S64x8192_S64x64_S8192x64_0_0_1_1_n_n 64 rfl rfl k
  have el : dot_S64x8192_S64x64_S8192x64_0_0_1_1_n_n.lhsIdx (ix2 p d)
      ((contrEquiv1 dot_S64x8192_S64x64_S8192x64_0_0_1_1_n_n 64 rfl rfl).symm k) = ix2 k p :=
    funext fun a => Fin.ext (by
      match a with
      | ⟨0, _⟩ => exact (lhs_axis0 _ _).trans hk
      | ⟨1, _⟩ => exact lhs_axis1 _ _)
  have er : dot_S64x8192_S64x64_S8192x64_0_0_1_1_n_n.rhsIdx (ix2 p d)
      ((contrEquiv1 dot_S64x8192_S64x64_S8192x64_0_0_1_1_n_n 64 rfl rfl).symm k) = ix2 k d :=
    funext fun a => Fin.ext (by
      match a with
      | ⟨0, _⟩ => exact (rhs_axis0 _ _).trans hk
      | ⟨1, _⟩ => exact rhs_axis1 _ _)
  rw [el, er]

/-! ## The body's value at an index -/

/-- Entry (k, p) of the left operand the body builds: the comparison of the row number `k` with edge `p`'s type word,
    widened and converted, which is the one-hot weight of relation `k` (the narrowing of the format changes nothing
    on extended reals). -/
theorem weights_read (x0 : Vec Ideal S1x8192 .i32) (k : Fin 64) (p : Fin 8192) :
    (truncf .bf16 (sitofp (F := Ideal) .f32 (extui 32 (cmpi .eq
        (broadcastTo S64x8192 (iota .tc S64x1 32 [0] iota_S64x1_d0_w32) broadcasts_S64x1_S64x8192)
        (broadcastTo S64x8192 (shapeCast S1x8192 x0 shapeCasts_S1x8192_S1x8192) broadcasts_S1x8192_S64x8192))
        natLt_1_32)) bitsLt_bf16_f32 : FVec Ideal S64x8192 .bf16) (ix2 k p)
      = Cert.Spec.oneHot k (x0 (ix2 (0 : Fin 1) p)) := by
  have rows : broadcastTo S64x8192 (iota .tc S64x1 32 [0] iota_S64x1_d0_w32) broadcasts_S64x1_S64x8192 (ix2 k p)
      = BitVec.ofNat 32 k.val :=
    (broadcastTo_apply _ broadcasts_S64x1_S64x8192 (ix2 k p) (ix2 k (0 : Fin 1)) (fun a => by
      match a with
      | ⟨0, _⟩ => rfl
      | ⟨1, _⟩ => rfl)).trans (iota_single_apply .tc S64x1 32 0 iota_S64x1_d0_w32 (ix2 k (0 : Fin 1)))
  have types : broadcastTo S64x8192 (shapeCast S1x8192 x0 shapeCasts_S1x8192_S1x8192) broadcasts_S1x8192_S64x8192 (ix2 k p)
      = x0 (ix2 (0 : Fin 1) p) := by
    rw [shapeCast_self]
    exact broadcastTo_apply x0 broadcasts_S1x8192_S64x8192 (ix2 k p) (ix2 (0 : Fin 1) p) (fun a => by
      match a with
      | ⟨0, _⟩ => rfl
      | ⟨1, _⟩ => rfl)
  show FloatOps.sitofp (F := Ideal) .f32 ((IntOp.cmpi .eq
      (broadcastTo S64x8192 (iota .tc S64x1 32 [0] iota_S64x1_d0_w32) broadcasts_S64x1_S64x8192 (ix2 k p))
      (broadcastTo S64x8192 (shapeCast S1x8192 x0 shapeCasts_S1x8192_S1x8192) broadcasts_S1x8192_S64x8192 (ix2 k p))).setWidth 32) = _
  rw [rows, types]
  rfl

/-- THE BODY'S VALUE at row `p` and feature `d` of its block: the one-hot weights of edge `p`'s type against column `d`
    of the relation slice. -/
theorem payload_read (x0 : Vec Ideal S1x8192 .i32) (x1 : Vec Ideal S64x64 .bf16) (p : Fin 8192) (d : Fin 64) :
    k0_pay1 x0 x1 (ix2 p d) = ∑ k : Fin 64, Cert.Spec.oneHot k (x0 (ix2 (0 : Fin 1) p)) * x1 (ix2 k d) := by
  unfold k0_pay1
  refine (matmul_read _ _ p d).trans ?_
  refine Finset.sum_congr rfl fun k _ => ?_
  rw [weights_read, shapeCast_self]

/-! ## From the blocks to the array -/

/-- Entry (e, d) of the array the region leaves, from the edge types and the relation slice it was handed. -/
def relvecAt (types : S1x802816.Idx → BitVec 32) (rel : S64x64.Idx → EReal) (e : Fin 802816) (d : Fin 64) : EReal :=
  ∑ k : Fin 64, Cert.Spec.oneHot k (types (ix2 (0 : Fin 1) e)) * rel (ix2 k d)

/-- The array the region leaves, as one function of its index. -/
def relvecArr (types : S1x802816.Idx → BitVec 32) (rel : S64x64.Idx → EReal) : S802816x64.Idx → EReal :=
  fun i => relvecAt types rel (i 0) (i 1)

theorem hz : (![0, 0] : Fin 2 → Nat) = fun _ => 0 := funext fun a => by fin_cases a <;> rfl

/-- The printed index maps, decided over the 98 points: the block of edge types sits in row 0 and moves along the edge
    axis with the output's block, the relation slice stays at block (0, 0), and the output's block at point `t` is
    block `t` of the edge axis, in column block 0. -/
theorem idx_facts : ∀ t : Fin cfg0.N, win0_0.index t (0 : Fin 2) = 0
    ∧ win0_0.index t (1 : Fin 2) = win0_2.index t (0 : Fin 2)
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the one array `relvecArr` of the edge types and the relation slice as the
    region finds them: row `p` of the body's block is the sum for the edge the output's rectangle puts there. -/
theorem flushed_eq (c : Dev nD) (t : Fin cfg0.N) :
    (dat0 (F := Ideal) V c).flushed 2 t
      = ((cfg0.win 2).blk t).view.read (Elt Ideal) (relvecArr (V c main_v3) (V c main_v6)) := by
  show (cfg0.win 2).cut (grid0.coords t) ((dat0 (F := Ideal) V c).after 2 t) = _
  rw [after0_2]
  unfold out0_2
  rw [View.canon_unit_zero hz]
  simp only [View.ld_unit_zero (S := S1x8192) hz, View.ld_unit_zero (S := S64x64) hz]
  obtain ⟨e0, e1, e2, e3, e4, -⟩ := idx_facts t
  funext j
  obtain ⟨p, q, rfl⟩ : ∃ (p : Fin 8192) (q : Fin 64), j = ix2 p q := ⟨j 0, j 1, eq_ix2 j⟩
  refine (payload_read (iblk0 V c 0 t) (iblk0 V c 1 t) p q).trans ?_
  show _ = relvecArr (V c main_v3) (V c main_v6) (((cfg0.win 2).blk t).view.emb (ix2 p q))
  unfold relvecArr relvecAt
  refine Finset.sum_congr rfl fun k _ => ?_
  have types : iblk0 V c 0 t (ix2 (0 : Fin 1) p)
      = V c main_v3 (ix2 (0 : Fin 1) (((cfg0.win 2).blk t).view.emb (ix2 p q) 0)) := by
    show V c main_v3 (((cfg0.win 0).blk t).view.emb (ix2 (0 : Fin 1) p)) = _
    refine congrArg (V c main_v3) (funext fun a => Fin.ext ?_)
    match a with
    | ⟨0, _⟩ => show win0_0.index t (0 : Fin 2) * 1 + 1 * 0 = 0; omega
    | ⟨1, _⟩ =>
      show win0_0.index t (1 : Fin 2) * 8192 + 1 * p.val = win0_2.index t (0 : Fin 2) * 8192 + 1 * p.val
      omega
  have rel : iblk0 V c 1 t (ix2 k q)
      = V c main_v6 (ix2 k (((cfg0.win 2).blk t).view.emb (ix2 p q) 1)) := by
    show V c main_v6 (((cfg0.win 1).blk t).view.emb (ix2 k q)) = _
    refine congrArg (V c main_v6) (funext fun a => Fin.ext ?_)
    match a with
    | ⟨0, _⟩ => show win0_1.index t (0 : Fin 2) * 64 + 1 * k.val = k.val; omega
    | ⟨1, _⟩ =>
      show win0_1.index t (1 : Fin 2) * 64 + 1 * q.val = win0_2.index t (1 : Fin 2) * 64 + 1 * q.val
      omega
  rw [types, rel]

/-- An index of the array is in point `t`'s block iff each coordinate is in the block's range on its axis. -/
theorem mem_blk (t : Fin cfg0.N) (i : S802816x64.Idx) :
    i ∈ ((cfg0.win 2).blk t).view.set
      ↔ ∀ a : Fin 2, win0_2.index t a * S8192x64.size a ≤ (i a).val
          ∧ (i a).val < win0_2.index t a * S8192x64.size a + S8192x64.size a := by
  show i ∈ ((View.whole main_v7).slice (win0_2.rect t)).set ↔ _
  rw [View.set_slice_whole, Rect.mem_set_unit]
  exact Iff.rfl

/-- THE BLOCKS TILE THE ARRAY: row `e` lies in the block of point `e / 8192`, and every point writes its block back. -/
theorem covered (i : S802816x64.Idx) :
    ∃ t : Fin cfg0.N, (cfg0.win 2).flush t = true ∧ i ∈ ((cfg0.win 2).blk t).view.set := by
  have hi0 : (i 0).val < 802816 := (i 0).isLt
  have hi1 : (i 1).val < 64 := (i 1).isLt
  have hN : cfg0.N = 98 := N_0
  have ht : (i 0).val / 8192 < cfg0.N := by rw [hN]; omega
  obtain ⟨-, -, -, -, e4, e5⟩ := idx_facts ⟨(i 0).val / 8192, ht⟩
  have e5' : win0_2.index ⟨(i 0).val / 8192, ht⟩ (0 : Fin 2) = (i 0).val / 8192 := e5
  refine ⟨⟨(i 0).val / 8192, ht⟩, flush0_2 _, ?_⟩
  rw [mem_blk]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    omega
  | ⟨1, _⟩ =>
    show win0_2.index ⟨(i 0).val / 8192, ht⟩ (1 : Fin 2) * 64 ≤ (i 1).val
      ∧ (i 1).val < win0_2.index ⟨(i 0).val / 8192, ht⟩ (1 : Fin 2) * 64 + 64
    omega

/-- THE ARRAY after the region's run is `relvecArr` of the edge types and the relation slice the region was handed. -/
theorem array_eq (c : Dev nD) :
    (dat0 (F := Ideal) V c).arrAt 2 cfg0.N = relvecArr (V c main_v3) (V c main_v6) :=
  (dat0 (F := Ideal) V c).arrAt_eq_of_cover 2 (relvecArr (V c main_v3) (V c main_v6))
    (fun t _ => flushed_eq V c t) covered

/-- THE OUTPUT ARRAY of region 0 after its run, at edge `e` and feature `d`: the one-hot weights of the edge's type
    against column `d` of the relation slice the region was handed. -/
theorem relvec0 (c : Dev nD) (e : Fin 802816) (d : Fin 64) :
    ((dat0 (F := Ideal) V c).arrAt 2 cfg0.N : S802816x64.Idx → EReal) (ix2 e d)
      = ∑ k : Fin 64, Cert.Spec.oneHot k ((V c main_v3 : S1x802816.Idx → BitVec 32) (ix2 (0 : Fin 1) e))
          * (V c main_v6 : S64x64.Idx → EReal) (ix2 k d) := by
  rw [array_eq]
  rfl

end Cert.KernelIdeal.Relvec0

end
-- ==== Proof.Relvec1.lean ====
/-
  The second relation-lookup region, read as an array.

  The region runs over 98 blocks of 8192 edges. At a block it loads the block's edge types (one row of 8192 words) and
  the whole 64 x 64 relation slice, builds the 64 x 8192 matrix whose entry (k, p) is one when edge p's type is k
  and zero otherwise, and multiplies its transpose with the relation slice: row p of the result is
  ∑ k, [type p = k] * rel[k, ·]. The blocks tile the edge axis, so after the region row e of the output array is that
  sum for edge e.
-/
import proofs.«421421_j48120813584781_3_alg».proof.Proof.Gen.KernelIdeal.Frame
import proofs.«421421_j48120813584781_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Relvec1

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## The product read at an index

The product contracts axis 0 of both operands: entry (p, d) of the result is the sum over k of
lhs[k, p] * rhs[k, d]. -/

/-- On its contracted axis the left operand reads the contraction coordinate. -/
theorem lhs_axis0 (i : S8192x64.Idx) (q : dot_S64x8192_S64x64_S8192x64_0_0_1_1_n_n.contr.Idx) :
    (dot_S64x8192_S64x64_S8192x64_0_0_1_1_n_n.lhsIdx i q 0).val = (q ⟨0, by decide⟩).val :=
  dot_S64x8192_S64x64_S8192x64_0_0_1_1_n_n.lhsIdx_val_of_single rfl i q

/-- On its free axis the left operand reads the result's row. -/
theorem lhs_axis1 (i : S8192x64.Idx) (q : dot_S64x8192_S64x64_S8192x64_0_0_1_1_n_n.contr.Idx) :
    (dot_S64x8192_S64x64_S8192x64_0_0_1_1_n_n.lhsIdx i q 1).val = (i 0).val := by
  unfold DotDims.lhsIdx
  rw [dif_neg (show ¬(1 : Fin S64x8192.rank) ∈ dot_S64x8192_S64x64_S8192x64_0_0_1_1_n_n.lhsBatch by decide),
    dif_pos (show (1 : Fin S64x8192.rank) ∈ dot_S64x8192_S64x64_S8192x64_0_0_1_1_n_n.lhsNonContracting by decide)]
  rfl

/-- On its contracted axis the right operand reads the contraction coordinate. -/
theorem rhs_axis0 (i : S8192x64.Idx) (q : dot_S64x8192_S64x64_S8192x64_0_0_1_1_n_n.contr.Idx) :
    (dot_S64x8192_S64x64_S8192x64_0_0_1_1_n_n.rhsIdx i q 0).val = (q ⟨0, by decide⟩).val :=
  dot_S64x8192_S64x64_S8192x64_0_0_1_1_n_n.rhsIdx_val_of_single rfl i q

/-- On its free axis the right operand reads the result's column. -/
theorem rhs_axis1 (i : S8192x64.Idx) (q : dot_S64x8192_S64x64_S8192x64_0_0_1_1_n_n.contr.Idx) :
    (dot_S64x8192_S64x64_S8192x64_0_0_1_1_n_n.rhsIdx i q 1).val = (i 1).val := by
  unfold DotDims.rhsIdx
  rw [dif_neg (show ¬(1 : Fin S64x64.rank) ∈ dot_S64x8192_S64x64_S8192x64_0_0_1_1_n_n.rhsBatch by decide),
    dif_pos (show (1 : Fin S64x64.rank) ∈ dot_S64x8192_S64x64_S8192x64_0_0_1_1_n_n.rhsNonContracting by decide)]
  rfl

/-- The product into the zero accumulator, at row `p` and column `d`: the sum over the 64 contracted rows. -/
theorem matmul_read (lhs : FVec Ideal S64x8192 .bf16) (rhs : FVec Ideal S64x64 .bf16) (p : Fin 8192) (d : Fin 64) :
    matmul dot_S64x8192_S64x64_S8192x64_0_0_1_1_n_n none lhs rhs (constant (F := Ideal) S8192x64 .f32 0x00000000#32) (ix2 p d)
      = ∑ k : Fin 64, lhs (ix2 k p) * rhs (ix2 k d) := by
  simp only [matmul]
  rw [Ideal.matmul_constant_zero_apply,
    ← Equiv.sum_comp (contrEquiv1 dot_S64x8192_S64x64_S8192x64_0_0_1_1_n_n 64 rfl rfl).symm]
  refine Finset.sum_congr rfl fun k _ => ?_
  have hk := contrEquiv1_symm_val dot_S64x8192_S64x64_S8192x64_0_0_1_1_n_n 64 rfl rfl k
  have el : dot_S64x8192_S64x64_S8192x64_0_0_1_1_n_n.lhsIdx (ix2 p d)
      ((contrEquiv1 dot_S64x8192_S64x64_S8192x64_0_0_1_1_n_n 64 rfl rfl).symm k) = ix2 k p :=
    funext fun a => Fin.ext (by
      match a with
      | ⟨0, _⟩ => exact (lhs_axis0 _ _).trans hk
      | ⟨1, _⟩ => exact lhs_axis1 _ _)
  have er : dot_S64x8192_S64x64_S8192x64_0_0_1_1_n_n.rhsIdx (ix2 p d)
      ((contrEquiv1 dot_S64x8192_S64x64_S8192x64_0_0_1_1_n_n 64 rfl rfl).symm k) = ix2 k d :=
    funext fun a => Fin.ext (by
      match a with
      | ⟨0, _⟩ => exact (rhs_axis0 _ _).trans hk
      | ⟨1, _⟩ => exact rhs_axis1 _ _)
  rw [el, er]

/-! ## The body's value at an index -/

/-- Entry (k, p) of the left operand the body builds: the comparison of the row number `k` with edge `p`'s type word,
    widened and converted, which is the one-hot weight of relation `k` (the narrowing of the format changes nothing
    on extended reals). -/
theorem weights_read (x0 : Vec Ideal S1x8192 .i32) (k : Fin 64) (p : Fin 8192) :
    (truncf .bf16 (sitofp (F := Ideal) .f32 (extui 32 (cmpi .eq
        (broadcastTo S64x8192 (iota .tc S64x1 32 [0] iota_S64x1_d0_w32) broadcasts_S64x1_S64x8192)
        (broadcastTo S64x8192 (shapeCast S1x8192 x0 shapeCasts_S1x8192_S1x8192) broadcasts_S1x8192_S64x8192))
        natLt_1_32)) bitsLt_bf16_f32 : FVec Ideal S64x8192 .bf16) (ix2 k p)
      = Cert.Spec.oneHot k (x0 (ix2 (0 : Fin 1) p)) := by
  have rows : broadcastTo S64x8192 (iota .tc S64x1 32 [0] iota_S64x1_d0_w32) broadcasts_S64x1_S64x8192 (ix2 k p)
      = BitVec.ofNat 32 k.val :=
    (broadcastTo_apply _ broadcasts_S64x1_S64x8192 (ix2 k p) (ix2 k (0 : Fin 1)) (fun a => by
      match a with
      | ⟨0, _⟩ => rfl
      | ⟨1, _⟩ => rfl)).trans (iota_single_apply .tc S64x1 32 0 iota_S64x1_d0_w32 (ix2 k (0 : Fin 1)))
  have types : broadcastTo S64x8192 (shapeCast S1x8192 x0 shapeCasts_S1x8192_S1x8192) broadcasts_S1x8192_S64x8192 (ix2 k p)
      = x0 (ix2 (0 : Fin 1) p) := by
    rw [shapeCast_self]
    exact broadcastTo_apply x0 broadcasts_S1x8192_S64x8192 (ix2 k p) (ix2 (0 : Fin 1) p) (fun a => by
      match a with
      | ⟨0, _⟩ => rfl
      | ⟨1, _⟩ => rfl)
  show FloatOps.sitofp (F := Ideal) .f32 ((IntOp.cmpi .eq
      (broadcastTo S64x8192 (iota .tc S64x1 32 [0] iota_S64x1_d0_w32) broadcasts_S64x1_S64x8192 (ix2 k p))
      (broadcastTo S64x8192 (shapeCast S1x8192 x0 shapeCasts_S1x8192_S1x8192) broadcasts_S1x8192_S64x8192 (ix2 k p))).setWidth 32) = _
  rw [rows, types]
  rfl

/-- THE BODY'S VALUE at row `p` and feature `d` of its block: the one-hot weights of edge `p`'s type against column `d`
    of the relation slice. -/
theorem payload_read (x0 : Vec Ideal S1x8192 .i32) (x1 : Vec Ideal S64x64 .bf16) (p : Fin 8192) (d : Fin 64) :
    k1_pay1 x0 x1 (ix2 p d) = ∑ k : Fin 64, Cert.Spec.oneHot k (x0 (ix2 (0 : Fin 1) p)) * x1 (ix2 k d) := by
  unfold k1_pay1
  refine (matmul_read _ _ p d).trans ?_
  refine Finset.sum_congr rfl fun k _ => ?_
  rw [weights_read, shapeCast_self]

/-! ## From the blocks to the array -/

/-- Entry (e, d) of the array the region leaves, from the edge types and the relation slice it was handed. -/
def relvecAt (types : S1x802816.Idx → BitVec 32) (rel : S64x64.Idx → EReal) (e : Fin 802816) (d : Fin 64) : EReal :=
  ∑ k : Fin 64, Cert.Spec.oneHot k (types (ix2 (0 : Fin 1) e)) * rel (ix2 k d)

/-- The array the region leaves, as one function of its index. -/
def relvecArr (types : S1x802816.Idx → BitVec 32) (rel : S64x64.Idx → EReal) : S802816x64.Idx → EReal :=
  fun i => relvecAt types rel (i 0) (i 1)

theorem hz : (![0, 0] : Fin 2 → Nat) = fun _ => 0 := funext fun a => by fin_cases a <;> rfl

/-- The printed index maps, decided over the 98 points: the block of edge types sits in row 0 and moves along the edge
    axis with the output's block, the relation slice stays at block (0, 0), and the output's block at point `t` is
    block `t` of the edge axis, in column block 0. -/
theorem idx_facts : ∀ t : Fin cfg1.N, win1_0.index t (0 : Fin 2) = 0
    ∧ win1_0.index t (1 : Fin 2) = win1_2.index t (0 : Fin 2)
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- WHAT POINT `t` WRITES BACK is block `t` of the one array `relvecArr` of the edge types and the relation slice as the
    region finds them: row `p` of the body's block is the sum for the edge the output's rectangle puts there. -/
theorem flushed_eq (c : Dev nD) (t : Fin cfg1.N) :
    (dat1 (F := Ideal) V c).flushed 2 t
      = ((cfg1.win 2).blk t).view.read (Elt Ideal) (relvecArr (V c main_v3) (V c main_v22)) := by
  show (cfg1.win 2).cut (grid1.coords t) ((dat1 (F := Ideal) V c).after 2 t) = _
  rw [after1_2]
  unfold out1_2
  rw [View.canon_unit_zero hz]
  simp only [View.ld_unit_zero (S := S1x8192) hz, View.ld_unit_zero (S := S64x64) hz]
  obtain ⟨e0, e1, e2, e3, e4, -⟩ := idx_facts t
  funext j
  obtain ⟨p, q, rfl⟩ : ∃ (p : Fin 8192) (q : Fin 64), j = ix2 p q := ⟨j 0, j 1, eq_ix2 j⟩
  refine (payload_read (iblk1 V c 0 t) (iblk1 V c 1 t) p q).trans ?_
  show _ = relvecArr (V c main_v3) (V c main_v22) (((cfg1.win 2).blk t).view.emb (ix2 p q))
  unfold relvecArr relvecAt
  refine Finset.sum_congr rfl fun k _ => ?_
  have types : iblk1 V c 0 t (ix2 (0 : Fin 1) p)
      = V c main_v3 (ix2 (0 : Fin 1) (((cfg1.win 2).blk t).view.emb (ix2 p q) 0)) := by
    show V c main_v3 (((cfg1.win 0).blk t).view.emb (ix2 (0 : Fin 1) p)) = _
    refine congrArg (V c main_v3) (funext fun a => Fin.ext ?_)
    match a with
    | ⟨0, _⟩ => show win1_0.index t (0 : Fin 2) * 1 + 1 * 0 = 0; omega
    | ⟨1, _⟩ =>
      show win1_0.index t (1 : Fin 2) * 8192 + 1 * p.val = win1_2.index t (0 : Fin 2) * 8192 + 1 * p.val
      omega
  have rel : iblk1 V c 1 t (ix2 k q)
      = V c main_v22 (ix2 k (((cfg1.win 2).blk t).view.emb (ix2 p q) 1)) := by
    show V c main_v22 (((cfg1.win 1).blk t).view.emb (ix2 k q)) = _
    refine congrArg (V c main_v22) (funext fun a => Fin.ext ?_)
    match a with
    | ⟨0, _⟩ => show win1_1.index t (0 : Fin 2) * 64 + 1 * k.val = k.val; omega
    | ⟨1, _⟩ =>
      show win1_1.index t (1 : Fin 2) * 64 + 1 * q.val = win1_2.index t (1 : Fin 2) * 64 + 1 * q.val
      omega
  rw [types, rel]

/-- An index of the array is in point `t`'s block iff each coordinate is in the block's range on its axis. -/
theorem mem_blk (t : Fin cfg1.N) (i : S802816x64.Idx) :
    i ∈ ((cfg1.win 2).blk t).view.set
      ↔ ∀ a : Fin 2, win1_2.index t a * S8192x64.size a ≤ (i a).val
          ∧ (i a).val < win1_2.index t a * S8192x64.size a + S8192x64.size a := by
  show i ∈ ((View.whole main_v23).slice (win1_2.rect t)).set ↔ _
  rw [View.set_slice_whole, Rect.mem_set_unit]
  exact Iff.rfl

/-- THE BLOCKS TILE THE ARRAY: row `e` lies in the block of point `e / 8192`, and every point writes its block back. -/
theorem covered (i : S802816x64.Idx) :
    ∃ t : Fin cfg1.N, (cfg1.win 2).flush t = true ∧ i ∈ ((cfg1.win 2).blk t).view.set := by
  have hi0 : (i 0).val < 802816 := (i 0).isLt
  have hi1 : (i 1).val < 64 := (i 1).isLt
  have hN : cfg1.N = 98 := N_1
  have ht : (i 0).val / 8192 < cfg1.N := by rw [hN]; omega
  obtain ⟨-, -, -, -, e4, e5⟩ := idx_facts ⟨(i 0).val / 8192, ht⟩
  have e5' : win1_2.index ⟨(i 0).val / 8192, ht⟩ (0 : Fin 2) = (i 0).val / 8192 := e5
  refine ⟨⟨(i 0).val / 8192, ht⟩, flush1_2 _, ?_⟩
  rw [mem_blk]
  intro a
  match a with
  | ⟨0, _⟩ =>
    show win1_2.index ⟨(i 0).val / 8192, ht⟩ (0 : Fin 2) * 8192 ≤ (i 0).val
      ∧ (i 0).val < win1_2.index ⟨(i 0).val / 8192, ht⟩ (0 : Fin 2) * 8192 + 8192
    omega
  | ⟨1, _⟩ =>
    show win1_2.index ⟨(i 0).val / 8192, ht⟩ (1 : Fin 2) * 64 ≤ (i 1).val
      ∧ (i 1).val < win1_2.index ⟨(i 0).val / 8192, ht⟩ (1 : Fin 2) * 64 + 64
    omega

/-- THE ARRAY after the region's run is `relvecArr` of the edge types and the relation slice the region was handed. -/
theorem array_eq (c : Dev nD) :
    (dat1 (F := Ideal) V c).arrAt 2 cfg1.N = relvecArr (V c main_v3) (V c main_v22) :=
  (dat1 (F := Ideal) V c).arrAt_eq_of_cover 2 (relvecArr (V c main_v3) (V c main_v22))
    (fun t _ => flushed_eq V c t) covered

/-- THE OUTPUT ARRAY of region 1 after its run, at edge `e` and feature `d`: the one-hot weights of the edge's type
    against column `d` of the relation slice the region was handed. -/
theorem relvec1 (c : Dev nD) (e : Fin 802816) (d : Fin 64) :
    ((dat1 (F := Ideal) V c).arrAt 2 cfg1.N : S802816x64.Idx → EReal) (ix2 e d)
      = ∑ k : Fin 64, Cert.Spec.oneHot k ((V c main_v3 : S1x802816.Idx → BitVec 32) (ix2 (0 : Fin 1) e))
          * (V c main_v22 : S64x64.Idx → EReal) (ix2 k d) := by
  rw [array_eq]
  rfl

end Cert.KernelIdeal.Relvec1

end
-- ==== Proof.OneHot.lean ====
/-
  The one-hot weights pick a row.

  For an edge whose type word `w` is a row of the 64-row table, `0 ≤ w < 64` as a signed integer, the weights
  `oneHot k w` are one at `k = w` and zero at every other `k`, so a sum of the rows weighted by them is the row `w`
  itself. Array indexing reads such a word as itself (it is not negative, so nothing is added; it is below 64, so
  the clamp does nothing), which is the row the reference's gather reads.
-/
import proofs.«421421_j48120813584781_3_alg».proof.Proof.Spec

noncomputable section

open scoped BigOperators

namespace Cert.Spec

open Idealize.ShloMosaic Idealize.ShloMosaic.ValueIdx

/-- A comparison bit widened to a word is the integer 0 or 1. -/
theorem toInt_setWidth_ofBool (b : Bool) : ((BitVec.ofBool b).setWidth 32).toInt = if b then 1 else 0 := by
  cases b <;> decide

/-- The weight is one when the word is `k`, zero otherwise. -/
theorem oneHot_eq (k : Fin 64) (w : BitVec 32) :
    oneHot k w = if BitVec.ofNat 32 k.val = w then 1 else 0 := by
  unfold oneHot
  show ((((BitVec.ofBool (BitVec.ofNat 32 k.val == w)).setWidth 32).toInt : ℝ) : EReal) = _
  rw [toInt_setWidth_ofBool]
  by_cases h : BitVec.ofNat 32 k.val = w
  · rw [if_pos h, if_pos (by simpa using h)]; norm_num
  · rw [if_neg h, if_neg (by simpa using h)]; norm_num

/-- A word in `0 … 63` as a signed integer is its own natural value, below 64. -/
theorem toNat_lt_of_range (w : BitVec 32) (hw : 0 ≤ w.toInt ∧ w.toInt < 64) : w.toNat < 64 ∧ w.toInt = (w.toNat : ℤ) := by
  have hlt : w.toNat < 2 ^ 32 := w.isLt
  rw [BitVec.toInt_eq_toNat_cond] at hw
  obtain ⟨h0, h1⟩ := hw
  split at h0 <;> split at h1 <;> rw [BitVec.toInt_eq_toNat_cond] <;> split <;> omega

/-- Array indexing reads a word in `0 … 63` as the row of that number. -/
theorem clampRow_wrapIdx_of_range (w : BitVec 32) (hw : 0 ≤ w.toInt ∧ w.toInt < 64) :
    clampRow 64 (by decide) (wrapIdx 64#32 w) = ⟨w.toNat, (toNat_lt_of_range w hw).1⟩ := by
  obtain ⟨hlt, hint⟩ := toNat_lt_of_range w hw
  have hns : IntOp.cmpi .slt w 0#32 = 0#1 := by
    show BitVec.ofBool (w.slt 0#32) = 0#1
    have : w.slt 0#32 = false := by
      rw [BitVec.slt_eq_decide]
      have h0 : (0#32 : BitVec 32).toInt = 0 := by decide
      rw [h0]; exact decide_eq_false (by omega)
    rw [this]; rfl
  have hw' : wrapIdx 64#32 w = w := by
    unfold wrapIdx
    rw [hns]; exact if_neg (by decide)
  unfold clampRow
  rw [hw']
  refine Fin.ext ?_
  show min w.toInt.toNat (64 - 1) = w.toNat
  rw [hint, Int.toNat_natCast]
  omega

/-- THE WEIGHTED SUM IS THE ROW: for a type word in range, the rows weighted by its one-hot weights sum to the row
    array indexing reads at it. -/
theorem oneHot_sum (w : BitVec 32) (hw : 0 ≤ w.toInt ∧ w.toInt < 64) (r : Fin 64 → EReal) :
    ∑ k : Fin 64, oneHot k w * r k = r (clampRow 64 (by decide) (wrapIdx 64#32 w)) := by
  obtain ⟨hlt, hint⟩ := toNat_lt_of_range w hw
  rw [clampRow_wrapIdx_of_range w hw]
  rw [Finset.sum_eq_single (⟨w.toNat, hlt⟩ : Fin 64)]
  · rw [oneHot_eq, if_pos (by simp), one_mul]
  · intro k _ hk
    rw [oneHot_eq, if_neg, zero_mul]
    intro h
    apply hk
    refine Fin.ext ?_
    have := congrArg BitVec.toNat h
    rw [BitVec.toNat_ofNat, Nat.mod_eq_of_lt (by have := k.isLt; omega)] at this
    exact this
  · intro h; exact absurd (Finset.mem_univ _) h

end Cert.Spec

end
-- ==== Proof.KernelValue.lean ====
/-
  The kernel's result is the specification, when every edge type is a row of the relation table.

  Each relation-lookup region leaves in row `e` of its output the one-hot weights of edge `e`'s type against the
  relation slice it was handed. For a real edge (one of the first 800000) whose type is in `0 … 63` that is the slice's
  row at the type, the row the reference gathers. So each round's host operations, over the region's output and the
  padded columns, compute a round of the specification, and the result buffer holds the second round over the first.
-/
import proofs.«421421_j48120813584781_3_alg».proof.Proof.KernelReads
import proofs.«421421_j48120813584781_3_alg».proof.Proof.KernelReads2
import proofs.«421421_j48120813584781_3_alg».proof.Proof.Relvec0
import proofs.«421421_j48120813584781_3_alg».proof.Proof.Relvec1
import proofs.«421421_j48120813584781_3_alg».proof.Proof.OneHot

set_option maxRecDepth 16384

noncomputable section

open scoped BigOperators

namespace Cert.KernelIdeal.KValue

open Cert.KernelIdeal Cert.KernelIdeal.Gen Cert.KernelIdeal.KLayer Cert.KernelIdeal.KReads
open Idealize.ShloMosaic Idealize.ShloMosaic.TcCoe Idealize.ShloMosaic.ValueIdx
open Idealize.SL.Sem

/-! ## The regions' operands, read at an index -/

/-- Slice 0 of the relation table, as the first region's operand, at `(k, d)`. -/
theorem relSlice0_apply (a1 : FVec Ideal S2x64x64 .f32) (k d : Fin 64) :
    (truncf .bf16 (shapeCast S64x64 (extractStridedSlice S1x64x64 ![0, 0, 0] a1 slices_S2x64x64_S1x64x64_0_0_0)
        shapeCasts_S1x64x64_S64x64) bitsLt_bf16_f32 : FVec Ideal S64x64 .bf16) (ix2 k d)
      = Cert.Spec.relOf 0 a1 (ix2 k d) := by
  show shapeCast S64x64 (extractStridedSlice S1x64x64 ![0, 0, 0] a1 slices_S2x64x64_S1x64x64_0_0_0)
    shapeCasts_S1x64x64_S64x64 (ix2 k d) = a1 (ix3 (0 : Fin 2) k d)
  rw [shapeCast_apply _ shapeCasts_S1x64x64_S64x64 (ix2 k d) (ix3 (0 : Fin 1) k d) (by
    rw [Shape.rowMajor_val_three, Shape.rowMajor_val_two]
    show (0 * 64 + k.val) * 64 + d.val = k.val * 64 + d.val
    omega)]
  exact extractStridedSlice_apply _ a1 slices_S2x64x64_S1x64x64_0_0_0 (ix3 (0 : Fin 1) k d) (ix3 (0 : Fin 2) k d)
    (fun a => match a with
      | ⟨0, _⟩ => rfl
      | ⟨1, _⟩ => by show k.val = 0 + k.val; omega
      | ⟨2, _⟩ => by show d.val = 0 + d.val; omega)

/-- Slice 1 of the relation table, as the second region's operand, at `(k, d)`. -/
theorem relSlice1_apply (a1 : FVec Ideal S2x64x64 .f32) (k d : Fin 64) :
    (truncf .bf16 (shapeCast S64x64 (extractStridedSlice S1x64x64 ![1, 0, 0] a1 slices_S2x64x64_S1x64x64_1_0_0)
        shapeCasts_S1x64x64_S64x64) bitsLt_bf16_f32 : FVec Ideal S64x64 .bf16) (ix2 k d)
      = Cert.Spec.relOf 1 a1 (ix2 k d) := by
  show shapeCast S64x64 (extractStridedSlice S1x64x64 ![1, 0, 0] a1 slices_S2x64x64_S1x64x64_1_0_0)
    shapeCasts_S1x64x64_S64x64 (ix2 k d) = a1 (ix3 (1 : Fin 2) k d)
  rw [shapeCast_apply _ shapeCasts_S1x64x64_S64x64 (ix2 k d) (ix3 (0 : Fin 1) k d) (by
    rw [Shape.rowMajor_val_three, Shape.rowMajor_val_two]
    show (0 * 64 + k.val) * 64 + d.val = k.val * 64 + d.val
    omega)]
  exact extractStridedSlice_apply _ a1 slices_S2x64x64_S1x64x64_1_0_0 (ix3 (0 : Fin 1) k d) (ix3 (1 : Fin 2) k d)
    (fun a => match a with
      | ⟨0, _⟩ => rfl
      | ⟨1, _⟩ => by show k.val = 0 + k.val; omega
      | ⟨2, _⟩ => by show d.val = 0 + d.val; omega)

variable (m : (ℓ : Loc nD τ sig) → Buf (Elt Ideal) ℓ) (ρ : Dev nD → PrngReg)

/-! ## A real edge's row of each region's output -/

/-- Row `e` of the first region's output, for a real edge with its type in range: the first relation slice's row at
    the edge's type. -/
theorem relvec0_row (c : Dev nD)
    (hr : ∀ e : Fin 800000, 0 ≤ (m ((c : Thread nD τ).loc main_arg4) (ix1 e)).toInt
      ∧ (m ((c : Thread nD τ).loc main_arg4) (ix1 e)).toInt < 64)
    (e : Fin 802816) (he : e.val < 800000) (d : Fin 64) :
    ((dat0 (F := Ideal) (V7 m ρ) c).arrAt 2 cfg0.N : S802816x64.Idx → EReal) (ix2 e d)
      = Cert.Spec.relOf 0 (m ((c : Thread nD τ).loc main_arg1))
          (ix2 (Cert.Spec.clampRow 64 (by decide)
            (Cert.Spec.wrapIdx 64#32 (m ((c : Thread nD τ).loc main_arg4) (ix1 ⟨e.val, he⟩)))) d) := by
  rw [Cert.KernelIdeal.Relvec0.relvec0 (V7 m ρ) c e d]
  have hv3 : (V7 m ρ c main_v3 : S1x802816.Idx → BitVec 32) (ix2 (0 : Fin 1) e)
      = m ((c : Thread nD τ).loc main_arg4) (ix1 ⟨e.val, he⟩) := by
    show W7 m ρ c (Proc.devRef .tc main_v3) (ix2 (0 : Fin 1) e) = _
    rw [W7_v3_at, padCol_lo _ _ e he]
  have hv6 : ∀ k : Fin 64, (V7 m ρ c main_v6 : S64x64.Idx → EReal) (ix2 k d)
      = Cert.Spec.relOf 0 (m ((c : Thread nD τ).loc main_arg1)) (ix2 k d) := fun k => by
    show W7 m ρ c (Proc.devRef .tc main_v6) (ix2 k d) = _
    rw [W7_v6]
    exact relSlice0_apply _ k d
  rw [hv3, Finset.sum_congr rfl (fun k _ => by rw [hv6 k])]
  exact Cert.Spec.oneHot_sum _ (hr ⟨e.val, he⟩)
    (fun k => Cert.Spec.relOf 0 (m ((c : Thread nD τ).loc main_arg1)) (ix2 k d))

/-- Row `e` of the second region's output, for a real edge with its type in range: the second relation slice's row
    at the edge's type. -/
theorem relvec1_row (c : Dev nD)
    (hr : ∀ e : Fin 800000, 0 ≤ (m ((c : Thread nD τ).loc main_arg4) (ix1 e)).toInt
      ∧ (m ((c : Thread nD τ).loc main_arg4) (ix1 e)).toInt < 64)
    (e : Fin 802816) (he : e.val < 800000) (d : Fin 64) :
    ((dat1 (F := Ideal) (V9 m ρ) c).arrAt 2 cfg1.N : S802816x64.Idx → EReal) (ix2 e d)
      = Cert.Spec.relOf 1 (m ((c : Thread nD τ).loc main_arg1))
          (ix2 (Cert.Spec.clampRow 64 (by decide)
            (Cert.Spec.wrapIdx 64#32 (m ((c : Thread nD τ).loc main_arg4) (ix1 ⟨e.val, he⟩)))) d) := by
  rw [Cert.KernelIdeal.Relvec1.relvec1 (V9 m ρ) c e d]
  have hv3 : (V9 m ρ c main_v3 : S1x802816.Idx → BitVec 32) (ix2 (0 : Fin 1) e)
      = m ((c : Thread nD τ).loc main_arg4) (ix1 ⟨e.val, he⟩) := by
    show W9 m ρ c (Proc.devRef .tc main_v3) (ix2 (0 : Fin 1) e) = _
    rw [W9_v3, W7_v3_at, padCol_lo _ _ e he]
  have hv22 : ∀ k : Fin 64, (V9 m ρ c main_v22 : S64x64.Idx → EReal) (ix2 k d)
      = Cert.Spec.relOf 1 (m ((c : Thread nD τ).loc main_arg1)) (ix2 k d) := fun k => by
    show W9 m ρ c (Proc.devRef .tc main_v22) (ix2 k d) = _
    rw [W9_v22]
    exact relSlice1_apply _ k d
  rw [hv3, Finset.sum_congr rfl (fun k _ => by rw [hv22 k])]
  exact Cert.Spec.oneHot_sum _ (hr ⟨e.val, he⟩)
    (fun k => Cert.Spec.relOf 1 (m ((c : Thread nD τ).loc main_arg1)) (ix2 k d))

/-! ## The result -/

/-- THE RESULT BUFFER at the return is the specification's two rounds of the launch contents of the five arguments,
    when every edge type is in `0 … 63`. -/
theorem result_eq (c : Dev nD)
    (hr : ∀ e : Fin 800000, 0 ≤ (m ((c : Thread nD τ).loc main_arg4) (ix1 e)).toInt
      ∧ (m ((c : Thread nD τ).loc main_arg4) (ix1 e)).toInt < 64) :
    W11 m ρ c (Proc.devRef .tc main_v35)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) := by
  rw [W11_v35, W9_v19]
  have h1 := kLayer_eq (m ((c : Thread nD τ).loc main_arg0)) (Cert.Spec.relOf 0 (m ((c : Thread nD τ).loc main_arg1)))
    ((dat0 (F := Ideal) (V7 m ρ) c).arrAt 2 cfg0.N) (m ((c : Thread nD τ).loc main_arg2))
    (m ((c : Thread nD τ).loc main_arg3)) (m ((c : Thread nD τ).loc main_arg4))
    (padCol (m ((c : Thread nD τ).loc main_arg2)) 0#32) (padCol (m ((c : Thread nD τ).loc main_arg3)) 50000#32)
    (fun e he => padCol_lo _ _ e he) (fun e he => padCol_lo _ _ e he) (fun e he => padCol_hi _ _ e he)
    (fun e he d => relvec0_row m ρ c hr e he d)
  rw [h1]
  exact kLayer_eq _ (Cert.Spec.relOf 1 (m ((c : Thread nD τ).loc main_arg1)))
    ((dat1 (F := Ideal) (V9 m ρ) c).arrAt 2 cfg1.N) (m ((c : Thread nD τ).loc main_arg2))
    (m ((c : Thread nD τ).loc main_arg3)) (m ((c : Thread nD τ).loc main_arg4))
    (padCol (m ((c : Thread nD τ).loc main_arg2)) 0#32) (padCol (m ((c : Thread nD τ).loc main_arg3)) 50000#32)
    (fun e he => padCol_lo _ _ e he) (fun e he => padCol_lo _ _ e he) (fun e he => padCol_hi _ _ e he)
    (fun e he d => relvec1_row m ρ c hr e he d)

end Cert.KernelIdeal.KValue

end
-- ==== Proof.RefValue.lean ====
/-
  The reference computes the specification.

  The reference's program is two rounds written with array indexing and a segment sum: gather the source rows of the
  node features and the relation rows of the edges' types, multiply, and scatter-add by destination into a zero
  array. Read at an index, the scatter-add is the sum over the edges whose destination is the row; each gather is its
  table at the clamped, wrapped index. That is a round of the specification, and the second round is the same over the
  first's result and the second relation slice.
-/
import proofs.«421421_j48120813584781_3_alg».proof.Proof.Gen.ReferenceIdeal.Read
import proofs.«421421_j48120813584781_3_alg».proof.Proof.Spec
import proofs.«421421_j48120813584781_3_alg».proof.Proof.LibRowGather
import proofs.«421421_j48120813584781_3_alg».proof.Proof.LibRowScatter
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index columns and the zero array, read at an index -/

/-- A flat index array made a column reads the array at the row. -/
theorem column_apply (x : S800000.Idx → BitVec 32) (e : Fin 800000) :
    broadcastInDim S800000x1 ![0] bcast_S800000_S800000x1_0 x (ix2 e (0 : Fin 1)) = x (ix1 e) :=
  broadcastInDim_apply _ bcast_S800000_S800000x1_0 x (ix2 e (0 : Fin 1)) (ix1 e) (fun a => match a with
    | ⟨0, _⟩ => by show e.val = if (800000 : Nat) = 1 then 0 else e.val; rw [if_neg (by decide)])

/-- Array indexing's reading of an index array into an axis of extent `n` (add `n` where the index is negative), at an
    edge, is the specification's `wrapIdx` of the edge's index: every operation in it is elementwise and the two
    constants are splats. -/
theorem wrap_apply (n : BitVec 32) (x : S800000.Idx → BitVec 32) (i : S800000.Idx) :
    select (cmpi .slt x (broadcastInDim S800000 ![] bcast_S_S800000 (constantI S_ 32 0#32)))
      (addi x (broadcastInDim S800000 ![] bcast_S_S800000 (constantI S_ 32 n))) x i = Cert.Spec.wrapIdx n (x i) := rfl

/-- The array the scatter-add accumulates into is zero everywhere. -/
theorem zeros_apply (i : S50000x64.Idx) :
    broadcastInDim S50000x64 ![] bcast_S_S50000x64 (constant (F := Ideal) S_ .f32 0x00000000#32) i = 0 :=
  Ideal.ofBits_zero_f32

/-- The column of wrapped indices a gather reads its rows by. -/
def wrapCol (n : BitVec 32) (x : S800000.Idx → BitVec 32) : S800000x1.Idx → BitVec 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 n))) x)

/-- At edge `e` it holds the edge's wrapped index. -/
theorem wrapCol_apply (n : BitVec 32) (x : S800000.Idx → BitVec 32) (e : Fin 800000) :
    wrapCol n x (ix2 e (0 : Fin 1)) = Cert.Spec.wrapIdx n (x (ix1 e)) :=
  (column_apply _ e).trans (wrap_apply n x (ix1 e))

/-! ## The two gathers, read at an edge and a feature -/

/-- The gathered node features at edge `e`: the row of `h` at the edge's wrapped, clamped source. -/
theorem gatherNode_apply (h : S50000x64.Idx → EReal) (x : S800000.Idx → BitVec 32) (e : Fin 800000) (d : Fin 64) :
    Host.gather gather_S50000x64_S800000x1_S800000x64_1_0_n_n_0_1_164 h (wrapCol 50000#32 x) (ix2 e d)
      = h (ix2 (Cert.Spec.clampRow 50000 (by decide) (Cert.Spec.wrapIdx 50000#32 (x (ix1 e)))) d) :=
  (Cert.LibRowGather.rowGather_apply (by decide) gather_S50000x64_S800000x1_S800000x64_1_0_n_n_0_1_164
    rfl rfl rfl rfl rfl rfl h (wrapCol 50000#32 x) e d).trans
    (congrArg (fun w => h (ix2 (Cert.Spec.clampRow 50000 (by decide) w) d)) (wrapCol_apply 50000#32 x e))

/-- The gathered relation rows at edge `e`: the row of `rel` at the edge's wrapped, clamped type. -/
theorem gatherRel_apply (rel : S64x64.Idx → EReal) (x : S800000.Idx → BitVec 32) (e : Fin 800000) (d : Fin 64) :
    Host.gather gather_S64x64_S800000x1_S800000x64_1_0_n_n_0_1_164 rel (wrapCol 64#32 x) (ix2 e d)
      = rel (ix2 (Cert.Spec.clampRow 64 (by decide) (Cert.Spec.wrapIdx 64#32 (x (ix1 e)))) d) :=
  (Cert.LibRowGather.rowGather_apply (by decide) gather_S64x64_S800000x1_S800000x64_1_0_n_n_0_1_164
    rfl rfl rfl rfl rfl rfl rel (wrapCol 64#32 x) e d).trans
    (congrArg (fun w => rel (ix2 (Cert.Spec.clampRow 64 (by decide) w) d)) (wrapCol_apply 64#32 x e))

/-! ## One round -/

/-- One round as the reference writes it, over any node features `h` and relation slice `rel`: the products of the
    gathered source rows and relation rows, scatter-added by destination into the zero array. -/
def refRound (h : S50000x64.Idx → EReal) (rel : S64x64.Idx → EReal) (x2 x3 x4 : S800000.Idx → BitVec 32) :
    S50000x64.Idx → EReal :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 x3)
    (mulf (F := Ideal) (φ := .f32)
      (Host.gather gather_S50000x64_S800000x1_S800000x64_1_0_n_n_0_1_164 h (wrapCol 50000#32 x2))
      (Host.gather gather_S64x64_S800000x1_S800000x64_1_0_n_n_0_1_164 rel (wrapCol 64#32 x4)))

/-- It is the specification's round. At node `v` and feature `d` the scatter-add is the zero it starts from plus the
    sum, over the edges whose destination word is `v`, of the update's element; the update at edge `e` is the product
    of the two gathered elements, each its table at the wrapped, clamped row. -/
theorem refRound_eq (h : S50000x64.Idx → EReal) (rel : S64x64.Idx → EReal) (x2 x3 x4 : S800000.Idx → BitVec 32) :
    refRound h rel x2 x3 x4 = Cert.Spec.layer h rel x2 x3 x4 := by
  funext j
  obtain ⟨v, d, rfl⟩ : ∃ v d, j = ix2 v d := ⟨j 0, j 1, eq_ix2 j⟩
  unfold refRound
  refine (Cert.LibRowScatter.rowScatterAdd_apply scatter_S50000x64_S800000x1_S800000x64_1_0_0_1 rfl rfl rfl rfl
    _ _ _ v d).trans ?_
  rw [zeros_apply, zero_add, Cert.Spec.layer_ix2]
  unfold Cert.Spec.layerAt
  refine Finset.sum_congr rfl fun e _ => ?_
  rw [column_apply x3 e]
  refine if_congr Iff.rfl ?_ rfl
  exact (mulf_apply _ _ _).trans (congrArg₂ (· * ·) (gatherNode_apply h x2 e d) (gatherRel_apply rel x4 e d))

/-! ## The relation slices -/

/-- The first slice of the relation table, cut out and reshaped to a matrix, is the specification's slice 0: the
    reshape reads row-major position `p * 64 + q`, whose quotient and remainder by 64 are `p` and `q`. -/
theorem rel0_eq (x1 : S2x64x64.Idx → EReal) : val_main_v8 (F := Ideal) x1 = Cert.Spec.relOf 0 x1 := by
  funext i
  obtain ⟨p, q, rfl⟩ : ∃ p q, i = ix2 p q := ⟨i 0, i 1, eq_ix2 i⟩
  rw [val_main_v8_apply, val_main_v7_apply]
  refine congrArg x1 (funext fun a => Fin.ext ?_)
  have hp : p.val < 64 := p.isLt
  have hq : q.val < 64 := q.isLt
  match a with
  | ⟨0, _⟩ => rfl
  | ⟨1, _⟩ => show (p.val * 64 + q.val) / 64 % 64 = p.val; omega
  | ⟨2, _⟩ => show (p.val * 64 + q.val) % 64 = q.val; omega

/-- The second slice likewise is the specification's slice 1. -/
theorem rel1_eq (x1 : S2x64x64.Idx → EReal) : val_main_v28 (F := Ideal) x1 = Cert.Spec.relOf 1 x1 := by
  funext i
  obtain ⟨p, q, rfl⟩ : ∃ p q, i = ix2 p q := ⟨i 0, i 1, eq_ix2 i⟩
  rw [val_main_v28_apply, val_main_v27_apply]
  refine congrArg x1 (funext fun a => Fin.ext ?_)
  have hp : p.val < 64 := p.isLt
  have hq : q.val < 64 := q.isLt
  match a with
  | ⟨0, _⟩ => rfl
  | ⟨1, _⟩ => show (p.val * 64 + q.val) / 64 % 64 = p.val; omega
  | ⟨2, _⟩ => show (p.val * 64 + q.val) % 64 = q.val; omega

/-! ## The two scatter-adds are two rounds -/

/-- The reference's first scatter-add is a round over the node features and the first relation slice … -/
theorem v19_eq (x0 : S50000x64.Idx → EReal) (x1 : S2x64x64.Idx → EReal) (x2 x3 x4 : S800000.Idx → BitVec 32) :
    val_main_v19 (F := Ideal) x0 x1 x2 x3 x4 = refRound x0 (val_main_v8 (F := Ideal) x1) x2 x3 x4 := rfl

/-- … and its second a round over the first's result and the second relation slice. -/
theorem v39_eq (x0 : S50000x64.Idx → EReal) (x1 : S2x64x64.Idx → EReal) (x2 x3 x4 : S800000.Idx → BitVec 32) :
    val_main_v39 (F := Ideal) x0 x1 x2 x3 x4
      = refRound (val_main_v19 (F := Ideal) x0 x1 x2 x3 x4) (val_main_v28 (F := Ideal) x1) x2 x3 x4 := rfl

/-- THE REFERENCE'S RESULT, as the generated stage of its last operation, is the specification's two rounds of the
    same five argument arrays. -/
theorem ref_eq (x0 : (⟨S50000x64, .f32⟩ : BufTy).Contents (Elt Ideal)) (x1 : (⟨S2x64x64, .f32⟩ : BufTy).Contents (Elt Ideal))
    (x2 x3 x4 : (⟨S800000, .i32⟩ : BufTy).Contents (Elt Ideal)) :
    val_main_v39 (F := Ideal) x0 x1 x2 x3 x4 = Cert.Spec.G x0 x1 x2 x3 x4 := by
  rw [v39_eq, refRound_eq, v19_eq, refRound_eq, rel0_eq, rel1_eq]
  rfl

end Cert.ReferenceIdeal.RefValue

end
-- ==== Proof.PreRange.lean ====
/-
  What the precondition says about the edge types: every edge's type word, read as a signed integer, is a row of the
  64-row relation table, `0 ≤ etype e < 64`. The precondition is the conjunction of three `all`s — both float arrays
  finite, and this range —, so its being all ones gives the range at every edge.
-/
import proofs.«421421_j48120813584781_3_alg».proof.Pre_finite_inputs
import proofs.«421421_j48120813584781_3_alg».proof.Proof.Gen.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx

/-- Under the precondition every edge type is in `0 … 63` as a signed integer. -/
theorem etype_range {F : FTy → Type} [FloatOps F] [Cert.Pre_finite_inputs.Facts]
    (a0 : FVec F Cert.Pre_finite_inputs.S50000x64 .f32) (a1 : FVec F Cert.Pre_finite_inputs.S2x64x64 .f32)
    (a2 a3 a4 : IVec Cert.Pre_finite_inputs.S800000 32)
    (h : Cert.Pre_finite_inputs.fn (F := F) a0 a1 a2 a3 a4 = fun _ => 1#1) (e : Fin 800000) :
    0 ≤ (a4 (ix1 e)).toInt ∧ (a4 (ix1 e)).toInt < 64 := by
  -- the scalar result at its one index: the last `and` splits off the range conjunct, an `all` over the edges
  have h0 := congrFun h ix0
  dsimp only [Cert.Pre_finite_inputs.fn] at h0
  obtain ⟨-, hall⟩ := IntOp.andi_eq_one.1 h0
  -- the result has rank 0, so one index: an `all` that is one is one at every edge, and there it is the `and` of
  -- the two signed comparisons
  haveI : Subsingleton Cert.Pre_finite_inputs.S_.Idx := ⟨fun a b => funext fun d => d.elim0⟩
  have he := Host.reduce_andi_all _ _ _ _ _ hall (ix1 e)
  obtain ⟨hge, hlt⟩ := IntOp.andi_eq_one.1 he
  -- the comparisons are against the broadcast constants 0 and 64
  have h0' : (0#32 : BitVec 32).toInt = 0 := by decide
  have h64 : (64#32 : BitVec 32).toInt = 64 := by decide
  exact ⟨h0' ▸ IntOp.cmpi_sge.1 hge, h64 ▸ IntOp.cmpi_slt.1 hlt⟩

end Cert.PreRange

end
-- ==== Proof.lean ====
/-
  Two rounds of relational message passing on a graph: the kernel's program against its array-indexing reference.

  Both programs compute, for every node v and feature d and in each of two rounds,
      h'(v, d) = ∑ over the edges e with dst e = v of  h(src e, d) * rel(etype e, d),
  the second round over the first's result with the second slice of the relation table (Proof/Spec.lean). The
  reference writes it with gathers and a segment sum. The kernel's program pads the 800000 edges to 802816, sending
  the padding edges to an extra row 50000 that it cuts off again, and looks the relation rows up on the matrix unit:
  a one-hot matrix of the edge types times the relation slice, block by block of 8192 edges. The two agree where
  every edge type is a row of the 64-row table, `0 ≤ etype e < 64`, which the precondition states: outside it the
  reference's gather clamps the index while the one-hot row is all zero.

  The pieces: the reference's result is the specification (Proof/RefValue.lean, over its generated run); the kernel
  program's run with its result buffer named (Proof/KernelRun.lean) and that buffer read back through the program
  to the specification (Proof/KernelReads.lean, Proof/KernelValue.lean: the regions by Proof/Relvec0.lean and
  Proof/Relvec1.lean, a round's host operations by Proof/KLayer.lean, the one-hot sum by Proof/OneHot.lean); the
  gather and the scatter-add read at an index (Proof/LibRowGather.lean, Proof/LibRowScatter.lean); the range of the
  edge types from the precondition (Proof/PreRange.lean). The frames are the generated ones, the reference's its
  generated run with the result dropped. No float law beyond sums and products is used: the two sides are the same
  sum of the same products, term by term.
-/
import proofs.«421421_j48120813584781_3_alg».proof.Defs
import proofs.«421421_j48120813584781_3_alg».proof.Proof.Gen.Kernel
import proofs.«421421_j48120813584781_3_alg».proof.Proof.Gen.Kernel.Skeleton
import proofs.«421421_j48120813584781_3_alg».proof.Proof.Gen.Kernel.Launch
import proofs.«421421_j48120813584781_3_alg».proof.Proof.Gen.Kernel.Points
import proofs.«421421_j48120813584781_3_alg».proof.Proof.Gen.Kernel.Frame
import proofs.«421421_j48120813584781_3_alg».proof.Proof.Gen.KernelIdeal
import proofs.«421421_j48120813584781_3_alg».proof.Proof.Gen.KernelIdeal.Skeleton
import proofs.«421421_j48120813584781_3_alg».proof.Proof.Gen.KernelIdeal.Launch
import proofs.«421421_j48120813584781_3_alg».proof.Proof.Gen.KernelIdeal.Points
import proofs.«421421_j48120813584781_3_alg».proof.Proof.Gen.KernelIdeal.Frame
import proofs.«421421_j48120813584781_3_alg».proof.Proof.Gen.ReferenceIdeal
import proofs.«421421_j48120813584781_3_alg».proof.Proof.Gen.Pre_finite_inputs
import proofs.«421421_j48120813584781_3_alg».proof.Proof.Gen.ReferenceIdeal.Run
import proofs.«421421_j48120813584781_3_alg».proof.Proof.Gen.ReferenceIdeal.Read
import proofs.«421421_j48120813584781_3_alg».proof.Proof.KernelRun
import proofs.«421421_j48120813584781_3_alg».proof.Proof.KernelValue
import proofs.«421421_j48120813584781_3_alg».proof.Proof.RefValue
import proofs.«421421_j48120813584781_3_alg».proof.Proof.PreRange
import Idealize.ShloMosaic.Adequacy
import Idealize.ShloMosaic.Init

noncomputable section

namespace Cert.Proof

open Idealize.ShloMosaic Idealize.ShloMosaic.ValueIdx Idealize.SL.Sem

/-- Both idealized programs, from memories agreeing on the arguments, end with the specification's two rounds of
    the arguments in their result buffers: the kernel's program by its run with the result named and that buffer
    read back, the reference by its generated run and its last stage read as the specification. The edge types'
    range, which the kernel's side needs, is the precondition's third conjunct. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hr : ∀ (c : Dev Cert.KernelIdeal.nD) (e : Fin 800000),
      0 ≤ (m ((c.tc : Thread Cert.KernelIdeal.nD Cert.KernelIdeal.τ).loc Cert.KernelIdeal.main_arg4) (ix1 e)).toInt
        ∧ (m ((c.tc : Thread Cert.KernelIdeal.nD Cert.KernelIdeal.τ).loc Cert.KernelIdeal.main_arg4) (ix1 e)).toInt < 64 :=
    fun c e => Cert.PreRange.etype_range _ _ _ _ _ (hpre c) e
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KValue.result_eq m ρ c (hr c)), (h c).2⟩)
      (Cert.KernelIdeal.RunNamed.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v39_eq, Cert.ReferenceIdeal.RefValue.ref_eq,
      (hagree c).1, (hagree c).2.1, (hagree c).2.2.1, (hagree c).2.2.2.1, (hagree c).2.2.2.2]

/-- The claim: the three frames (the kernel's programs by their generated frames, the reference by its generated run
    with the result dropped), the idealization's ledger (empty), and the equality of results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
